-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x3072 : Shape := ⟨2, ![2048, 3072]⟩
abbrev S2048 : Shape := ⟨1, ![2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x3072 : S_.BroadcastsInDim S2048x3072 (![] : Fin 0 → Fin S2048x3072.rank)
  reducesTo_S2048x3072_S_d0_1 : S2048x3072.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S2048 .f32) (main_v48 : IVec S_ 1) (main_v49 : FVec F S2048x3072 .f32) (main_v50 : FVec F S2048x3072 .f32) : IVec S_ 1 :=
  let main_v51 : IVec S2048x3072 1 := cmpf .olt main_v49 main_v50
  let main_c_19 : IVec S_ 1 := constantI S_ 1 1#1
  let main_v52 : IVec S_ 1 := (fun x v => Host.reduce IntOp.andi x v reducesTo_S2048x3072_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  main_v58

def fn_part2 {F : FTy → Type} [FloatOps F] (main_arg7 : FVec F S2048 .f32) (main_arg8 : FVec F S2048x3072 .f32) (main_arg9 : FVec F S2048 .f32) (main_arg10 : FVec F S2048x3072 .f32) (main_arg11 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x3072 .f32 := Host.absf main_arg8
  let main_cst_14 : FVec F S_ .f32 := constant S_ .f32 0x7F800000#32
  let main_v40 : FVec F S2048x3072 .f32 := broadcastInDim S2048x3072 ![] bcast_S_S2048x3072 main_cst_14
  let main_v41 : IVec S2048x3072 1 := cmpf .olt main_v39 main_v40
  let main_c_15 : IVec S_ 1 := constantI S_ 1 1#1
  let main_v42 : IVec S_ 1 := (fun x v => Host.reduce IntOp.andi x v reducesTo_S2048x3072_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x3072 .f32 := Host.absf main_arg10
  let main_cst_18 : FVec F S_ .f32 := constant S_ .f32 0x7F800000#32
  let main_v50 : FVec F S2048x3072 .f32 := broadcastInDim S2048x3072 ![] bcast_S_S2048x3072 main_cst_18
  fn_part3 (F := F) main_arg11 main_v48 main_v49 main_v50

def fn_part1 {F : FTy → Type} [FloatOps F] (main_arg4 : FVec F S2048x3072 .f32) (main_arg5 : FVec F S2048 .f32) (main_arg6 : FVec F S2048x3072 .f32) (main_arg7 : FVec F S2048 .f32) (main_arg8 : FVec F S2048x3072 .f32) (main_arg9 : FVec F S2048 .f32) (main_arg10 : FVec F S2048x3072 .f32) (main_arg11 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048x3072 .f32 := Host.absf main_arg4
  let main_cst_6 : FVec F S_ .f32 := constant S_ .f32 0x7F800000#32
  let main_v20 : FVec F S2048x3072 .f32 := broadcastInDim S2048x3072 ![] bcast_S_S2048x3072 main_cst_6
  let main_v21 : IVec S2048x3072 1 := cmpf .olt main_v19 main_v20
  let main_c_7 : IVec S_ 1 := constantI S_ 1 1#1
  let main_v22 : IVec S_ 1 := (fun x v => Host.reduce IntOp.andi x v reducesTo_S2048x3072_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x3072 .f32 := Host.absf main_arg6
  let main_cst_10 : FVec F S_ .f32 := constant S_ .f32 0x7F800000#32
  let main_v30 : FVec F S2048x3072 .f32 := broadcastInDim S2048x3072 ![] bcast_S_S2048x3072 main_cst_10
  let main_v31 : IVec S2048x3072 1 := cmpf .olt main_v29 main_v30
  let main_c_11 : IVec S_ 1 := constantI S_ 1 1#1
  let main_v32 : IVec S_ 1 := (fun x v => Host.reduce IntOp.andi x v reducesTo_S2048x3072_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x1024 .f32) (main_arg1 : FVec F S4096x2048 .f32) (main_arg2 : FVec F S4096x2048 .f32) (main_arg3 : FVec F S4096x2048 .f32) (main_arg4 : FVec F S2048x3072 .f32) (main_arg5 : FVec F S2048 .f32) (main_arg6 : FVec F S2048x3072 .f32) (main_arg7 : FVec F S2048 .f32) (main_arg8 : FVec F S2048x3072 .f32) (main_arg9 : FVec F S2048 .f32) (main_arg10 : FVec F S2048x3072 .f32) (main_arg11 : FVec F S2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_v13 main_v16
-- ==== Kernel.lean ====
abbrev S4096x1024 : Shape := ⟨2, ![4096, 1024]⟩
abbrev S4096x2048 : Shape := ⟨2, ![4096, 2048]⟩
abbrev S2048x3072 : Shape := ⟨2, ![2048, 3072]⟩
abbrev S2048 : Shape := ⟨1, ![2048]⟩
abbrev S2048x1024 : Shape := ⟨2, ![2048, 1024]⟩
abbrev S1024x2048 : Shape := ⟨2, ![1024, 2048]⟩
abbrev S2048x2048 : Shape := ⟨2, ![2048, 2048]⟩
abbrev S64x1024 : Shape := ⟨2, ![64, 1024]⟩
abbrev S64x2048 : Shape := ⟨2, ![64, 2048]⟩
abbrev S1x2048 : Shape := ⟨2, ![1, 2048]⟩

abbrev nBuf : Space → Nat
  | .hbm => 40
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x3072, .f32⟩
  | .hbm, ⟨5, _⟩ => ⟨S2048, .f32⟩
  | .hbm, ⟨6, _⟩ => ⟨S2048x3072, .f32⟩
  | .hbm, ⟨7, _⟩ => ⟨S2048, .f32⟩
  | .hbm, ⟨8, _⟩ => ⟨S2048x3072, .f32⟩
  | .hbm, ⟨9, _⟩ => ⟨S2048, .f32⟩
  | .hbm, ⟨10, _⟩ => ⟨S2048x3072, .f32⟩
  | .hbm, ⟨11, _⟩ => ⟨S2048, .f32⟩
  | .hbm, ⟨12, _⟩ => ⟨S2048x1024, .f32⟩
  | .hbm, ⟨13, _⟩ => ⟨S1024x2048, .f32⟩
  | .hbm, ⟨14, _⟩ => ⟨S1024x2048, .bf16⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S2048x1024, .f32⟩
  | .hbm, ⟨19, _⟩ => ⟨S1024x2048, .f32⟩
  | .hbm, ⟨20, _⟩ => ⟨S1024x2048, .bf16⟩
  | .hbm, ⟨21, _⟩ => ⟨S2048x2048, .f32⟩
  | .hbm, ⟨22, _⟩ => ⟨S2048x2048, .f32⟩
  | .hbm, ⟨23, _⟩ => ⟨S2048x2048, .bf16⟩
  | .hbm, ⟨24, _⟩ => ⟨S2048x1024, .f32⟩
  | .hbm, ⟨25, _⟩ => ⟨S1024x2048, .f32⟩
  | .hbm, ⟨26, _⟩ => ⟨S1024x2048, .bf16⟩
  | .hbm, ⟨27, _⟩ => ⟨S2048x2048, .f32⟩
  | .hbm, ⟨28, _⟩ => ⟨S2048x2048, .f32⟩
  | .hbm, ⟨29, _⟩ => ⟨S2048x2048, .bf16⟩
  | .hbm, ⟨30, _⟩ => ⟨S2048x1024, .f32⟩
  | .hbm, ⟨31, _⟩ => ⟨S1024x2048, .f32⟩
  | .hbm, ⟨32, _⟩ => ⟨S1024x2048, .bf16⟩
  | .hbm, ⟨33, _⟩ => ⟨S2048x2048, .f32⟩
  | .hbm, ⟨34, _⟩ => ⟨S2048x2048, .f32⟩
  | .hbm, ⟨35, _⟩ => ⟨S2048x2048, .bf16⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .local _ .vmem, ⟨0, _⟩ => ⟨S64x1024, .f32⟩
  | .local _ .vmem, ⟨1, _⟩ => ⟨S64x1024, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S1024x2048, .bf16⟩
  | .local _ .vmem, ⟨9, _⟩ => ⟨S2048x2048, .bf16⟩
  | .local _ .vmem, ⟨10, _⟩ => ⟨S2048, .f32⟩
  | .local _ .vmem, ⟨11, _⟩ => ⟨S1024x2048, .bf16⟩
  | .local _ .vmem, ⟨12, _⟩ => ⟨S2048x2048, .bf16⟩
  | .local _ .vmem, ⟨13, _⟩ => ⟨S2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x1024, .f32⟩
  | .local _ .vmem, ⟨21, _⟩ => ⟨S64x1024, .f32⟩
  | .local _ .vmem, ⟨22, _⟩ => ⟨S64x2048, .f32⟩
  | .local _ .vmem, ⟨23, _⟩ => ⟨S64x2048, .f32⟩
  | .local _ .vmem, ⟨24, _⟩ => ⟨S64x2048, .f32⟩
  | .local _ .vmem, ⟨25, _⟩ => ⟨S64x2048, .f32⟩
  | .local _ .vmem, ⟨26, _⟩ => ⟨S1024x2048, .bf16⟩
  | .local _ .vmem, ⟨27, _⟩ => ⟨S2048x2048, .bf16⟩
  | .local _ .vmem, ⟨28, _⟩ => ⟨S2048, .f32⟩
  | .local _ .vmem, ⟨29, _⟩ => ⟨S1024x2048, .bf16⟩
  | .local _ .vmem, ⟨30, _⟩ => ⟨S2048x2048, .bf16⟩
  | .local _ .vmem, ⟨31, _⟩ => ⟨S2048, .f32⟩
  | .local _ .vmem, ⟨32, _⟩ => ⟨S64x2048, .f32⟩
  | .local _ .vmem, ⟨33, _⟩ => ⟨S64x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg9_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem9_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x2048 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S64x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2048x3072_S2048x1024_0_0 : S2048x3072.Slices ![0, 0] S2048x1024
  transposes_S2048x1024_S1024x2048_1_0 : S2048x1024.Transposes [1, 0] S1024x2048
  bitsLt_bf16_f32 : FTy.bits .bf16 < FTy.bits .f32
  slices_S2048x3072_S2048x2048_0_1024 : S2048x3072.Slices ![0, 1024] S2048x2048
  transposes_S2048x2048_S2048x2048_1_0 : S2048x2048.Transposes [1, 0] S2048x2048
  inb_S64x1024_S64x1024_0_0 : ∀ a, (![0, 0] : Fin 2 → Nat) a + S64x1024.size a ≤ S64x1024.size a
  h_S64x1024 : 0 < S64x1024.numel
  inb_S64x2048_S64x2048_0_0 : ∀ a, (![0, 0] : Fin 2 → Nat) a + S64x2048.size a ≤ S64x2048.size a
  h_S64x2048 : 0 < S64x2048.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S64x2048 : S1x2048.Broadcasts S64x2048
  natLt_1_32 : 1 < 32
  shapeCasts_S64x2048_S64x2048 : S64x2048.ShapeCasts S64x2048
  dot_S64x1024_S1024x2048_S64x2048_1_0_0_1_n_n_wf : DotDims.WF S64x1024 S1024x2048 S64x2048 [1] [0] [0] [1] [] []
  dot_S64x2048_S2048x2048_S64x2048_1_0_0_1_n_n_wf : DotDims.WF S64x2048 S2048x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S4096x1024.size a
  hwx0_0 : ∀ i : grid0.Coords, EltTy.bits .f32 = 32 ∨ (Rect.block (s := S4096x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S4096x2048.size a
  hwx0_1 : ∀ i : grid0.Coords, EltTy.bits .f32 = 32 ∨ (Rect.block (s := S4096x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S4096x2048.size a
  hwx0_2 : ∀ i : grid0.Coords, EltTy.bits .f32 = 32 ∨ (Rect.block (s := S4096x2048) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S4096x2048.size a
  hwx0_3 : ∀ i : grid0.Coords, EltTy.bits .f32 = 32 ∨ (Rect.block (s := S4096x2048) S64x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x2048.size a ≤ S1024x2048.size a
  hwx0_7 : ∀ i : grid0.Coords, EltTy.bits .bf16 = 32 ∨ (Rect.block (s := S1024x2048) S1024x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x2048.size a ≤ S2048x2048.size a
  hwx0_8 : ∀ i : grid0.Coords, EltTy.bits .bf16 = 32 ∨ (Rect.block (s := S2048x2048) S2048x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S2048.size a
  hwx0_9 : ∀ i : grid0.Coords, EltTy.bits .f32 = 32 ∨ (Rect.block (s := S2048) S2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x2048.size a ≤ S4096x2048.size a
  hwx0_10 : ∀ i : grid0.Coords, EltTy.bits .f32 = 32 ∨ (Rect.block (s := S4096x2048) S64x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x2048.size a ≤ S4096x2048.size a
  hwx0_11 : ∀ i : grid0.Coords, EltTy.bits .f32 = 32 ∨ (Rect.block (s := S4096x2048) S64x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S64x2048.size a ≤ S4096x2048.size a
  hwx0_12 : ∀ i : grid0.Coords, EltTy.bits .f32 = 32 ∨ (Rect.block (s := S4096x2048) S64x2048.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S4096x1024.size a
  hwx1_0 : ∀ i : grid1.Coords, EltTy.bits .f32 = 32 ∨ (Rect.block (s := S4096x1024) S64x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x2048.size a ≤ S4096x2048.size a
  hwx1_1 : ∀ i : grid1.Coords, EltTy.bits .f32 = 32 ∨ (Rect.block (s := S4096x2048) S64x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x2048.size a ≤ S4096x2048.size a
  hwx1_2 : ∀ i : grid1.Coords, EltTy.bits .f32 = 32 ∨ (Rect.block (s := S4096x2048) S64x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S1024x2048.size a
  hwx1_3 : ∀ i : grid1.Coords, EltTy.bits .bf16 = 32 ∨ (Rect.block (s := S1024x2048) S1024x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x2048.size a ≤ S2048x2048.size a
  hwx1_4 : ∀ i : grid1.Coords, EltTy.bits .bf16 = 32 ∨ (Rect.block (s := S2048x2048) S2048x2048.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048.size a ≤ S2048.size a
  hwx1_5 : ∀ i : grid1.Coords, EltTy.bits .f32 = 32 ∨ (Rect.block (s := S2048) S2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x2048.size a ≤ S1024x2048.size a
  hwx1_6 : ∀ i : grid1.Coords, EltTy.bits .bf16 = 32 ∨ (Rect.block (s := S1024x2048) S1024x2048.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2048x2048.size a ≤ S2048x2048.size a
  hwx1_7 : ∀ i : grid1.Coords, EltTy.bits .bf16 = 32 ∨ (Rect.block (s := S2048x2048) S2048x2048.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S2048.size a ≤ S2048.size a
  hwx1_8 : ∀ i : grid1.Coords, EltTy.bits .f32 = 32 ∨ (Rect.block (s := S2048) S2048.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S64x2048.size a ≤ S4096x2048.size a
  hwx1_9 : ∀ i : grid1.Coords, EltTy.bits .f32 = 32 ∨ (Rect.block (s := S4096x2048) S64x2048.size (cc1_transform_9 i) (hinb1_9 i)).WholeWords (EltTy.packing .f32)

variable [Facts₀]

def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1024x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S2048x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24_0) S64x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v24_1) S64x2048.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v24_2) S64x2048.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24_2) S64x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S64x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1024x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S2048x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1024x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S2048x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25) S64x2048.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x3072 : Shape := ⟨2, ![2048, 3072]⟩
abbrev S2048 : Shape := ⟨1, ![2048]⟩
abbrev S4096x3072 : Shape := ⟨2, ![4096, 3072]⟩
abbrev S3072x2048 : Shape := ⟨2, ![3072, 2048]⟩
abbrev S1x2048 : Shape := ⟨2, ![1, 2048]⟩
abbrev S_ : Shape := ⟨0, ![]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x3072, .f32⟩
  | .hbm, ⟨5, _⟩ => ⟨S2048, .f32⟩
  | .hbm, ⟨6, _⟩ => ⟨S2048x3072, .f32⟩
  | .hbm, ⟨7, _⟩ => ⟨S2048, .f32⟩
  | .hbm, ⟨8, _⟩ => ⟨S2048x3072, .f32⟩
  | .hbm, ⟨9, _⟩ => ⟨S2048, .f32⟩
  | .hbm, ⟨10, _⟩ => ⟨S2048x3072, .f32⟩
  | .hbm, ⟨11, _⟩ => ⟨S2048, .f32⟩
  | .hbm, ⟨12, _⟩ => ⟨S4096x3072, .f32⟩
  | .hbm, ⟨13, _⟩ => ⟨S3072x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .i1⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S3072x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x3072, .f32⟩
  | .hbm, ⟨55, _⟩ => ⟨S3072x2048, .f32⟩
  | .hbm, ⟨56, _⟩ => ⟨S4096x2048, .f32⟩
  | .hbm, ⟨57, _⟩ => ⟨S1x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S3072x2048, .f32⟩
  | .hbm, ⟨62, _⟩ => ⟨S4096x2048, .f32⟩
  | .hbm, ⟨63, _⟩ => ⟨S1x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S_, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_cst : Ref sig .tc := ⟨.hbm, 50, rfl⟩
abbrev main_call1_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  concatenates_S4096x1024_S4096x2048_S4096x3072_d1 : Shape.Concatenates [S4096x1024, S4096x2048] S4096x3072 1
  transposes_S2048x3072_S3072x2048_1_0 : S2048x3072.Transposes [1, 0] S3072x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x3072_S3072x2048_S4096x2048_1_0_0_1_n_n_wf : DotDims.WF S4096x3072 S3072x2048 S4096x2048 [1] [0] [0] [1] [] []

variable [Facts₀]

def dot_S4096x3072_S3072x2048_S4096x2048_1_0_0_1_n_n : DotDims S4096x3072 S3072x2048 S4096x2048 where
  lhsContracting := [1]
  rhsContracting := [0]
  lhsNonContracting := [0]
  rhsNonContracting := [1]
  lhsBatch := []
  rhsBatch := []
  wf := dot_S4096x3072_S3072x2048_S4096x2048_1_0_0_1_n_n_wf

class Facts : Prop extends Facts₀ where

variable [Facts]
-- ==== Proof.Spec.lean ====
/-
  The mathematics both programs compute, stated once over the argument arrays at the ideal instance
  (floats are extended reals, operations exact).

  A gate's pre-activation at row `r`, column `j` is row `r` of the inputs `[x | h]` against column `j` of the
  gate's weight, plus the bias.  The weight is given here in the layout the kernel stages it in: an
  `x`-part `Wx : [1024, 2048]` and an `h`-part `Wh : [2048, 2048]`, both already transposed
  (`Wx k j = W j k`, `Wh k j = W j (1024 + k)` for the reference's `W : [2048, 3072]`: `wx`, `wh`).  So
  `preK x h Wx Wh b r j = ∑ k < 1024, x r k · Wx k j + ∑ k < 2048, h r k · Wh k j + b j`, and the reference's
  one sum over the 3072 joined columns is the same two sums (`sum_split`: addition of extended reals is
  commutative and associative, nothing else is used).

  The cell then is pointwise in (r, j):
    v         = max (tc + tanh zt) 0 - 1                  (time cell advanced, before the reset)
    leap      = 1 if v ≤ 0 else 0
    time_next = (1 - leap) · v
    energy    = leap · exc
    excited   = max (exc - energy + logistic za) 0
    h_up      = h · energy
    h_next    = tanh ((1 - logistic zw) · h + logistic zw · tanh ze)
  with zt, za, zw the pre-activations of the time, absorb and mixing gates on `[x | h]` and ze the
  pre-activation of the state gate on `[x | h_up]`.
-/
import Idealize.ShloMosaic.PureOps.Ideal
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx

abbrev SX : Shape := ⟨2, ![4096, 1024]⟩
abbrev SH : Shape := ⟨2, ![4096, 2048]⟩
abbrev SW : Shape := ⟨2, ![2048, 3072]⟩
abbrev SWx : Shape := ⟨2, ![1024, 2048]⟩
abbrev SWh : Shape := ⟨2, ![2048, 2048]⟩
abbrev SB : Shape := ⟨1, ![2048]⟩

/-- The f32 words `1.0` and `0.0` as both programs spell them. -/
abbrev o1 : EReal := Ideal.ofBits .f32 0x3F800000#32
abbrev o0 : EReal := Ideal.ofBits .f32 0x00000000#32

/-- The `x`-part of a gate's weight, transposed: `wx W k j = W j k`. -/
def wx (W : SW.Idx → EReal) : SWx.Idx → EReal := fun i => W (ix2 (i 1) ⟨(i 0).val, by have := (i 0).isLt; simp at this; omega⟩)
/-- The `h`-part of a gate's weight, transposed: `wh W k j = W j (1024 + k)`. -/
def wh (W : SW.Idx → EReal) : SWh.Idx → EReal := fun i => W (ix2 (i 1) ⟨1024 + (i 0).val, by have := (i 0).isLt; simp at this; omega⟩)

theorem wx_apply (W : SW.Idx → EReal) (k : Fin 1024) (j : Fin 2048) : wx W (ix2 k j) = W (ix2 j ⟨k.val, by omega⟩) := rfl
theorem wh_apply (W : SW.Idx → EReal) (k : Fin 2048) (j : Fin 2048) : wh W (ix2 k j) = W (ix2 j ⟨1024 + k.val, by omega⟩) := rfl

/-- A gate's pre-activation at row `r`, column `j`. -/
def preK (x : SX.Idx → EReal) (h : SH.Idx → EReal) (Wx : SWx.Idx → EReal) (Wh : SWh.Idx → EReal) (b : SB.Idx → EReal)
    (r : Fin 4096) (j : Fin 2048) : EReal :=
  (∑ k : Fin 1024, x (ix2 r k) * Wx (ix2 k j)) + (∑ k : Fin 2048, h (ix2 r k) * Wh (ix2 k j)) + b (ix1 j)

/-- A sum over the 3072 joined columns is the sum over the first 1024 plus the sum over the last 2048. -/
theorem sum_split (f : Fin 3072 → EReal) :
    ∑ k : Fin 3072, f k = (∑ k : Fin 1024, f ⟨k.val, by omega⟩) + ∑ k : Fin 2048, f ⟨1024 + k.val, by omega⟩ :=
  Fin.sum_univ_add (M := EReal) (a := 1024) (b := 2048) f

/-! ## The cell, pointwise -/

/-- The advanced time cell before the reset: `max (tc + tanh zt) 0 - 1`. -/
def adv (tc zt : EReal) : EReal := max (tc + Ideal.tanh zt) o0 - o1
/-- `1` where `v ≤ 0`, else `0`. -/
def leap (v : EReal) : EReal := (((Ideal.cmp .ole v o0).toNat : ℝ) : EReal)
def timeNext (tc zt : EReal) : EReal := (o1 - leap (adv tc zt)) * adv tc zt
def energy (tc exc zt : EReal) : EReal := leap (adv tc zt) * exc
def excited (tc exc zt za : EReal) : EReal := max (exc - energy tc exc zt + Ideal.logistic za) o0
def hUp (hc tc exc zt : EReal) : EReal := hc * energy tc exc zt
def hNext (hc zw ze : EReal) : EReal := Ideal.tanh ((o1 - Ideal.logistic zw) * hc + Ideal.logistic zw * Ideal.tanh ze)

/-- The kernel's `sitofp (extui b)` of a one-bit comparison is the reference's `uitofp b`: both are 0 or 1. -/
theorem leap_bridge (b : BitVec 1) : (((b.setWidth 32).toInt : ℝ) : EReal) = (((b.toNat : ℝ)) : EReal) := by
  have hb : b = 0#1 ∨ b = 1#1 := by
    rcases Nat.lt_succ_iff_lt_or_eq.mp (show b.toNat < 2 from b.isLt) with h | h
    · left; apply BitVec.eq_of_toNat_eq; simp; omega
    · right; apply BitVec.eq_of_toNat_eq; simp; omega
  rcases hb with rfl | rfl <;> simp

/-- The expansion of the logistic function, `1 / (1 + e^(-z))` with the f32 word `1.0`, is the one operation. -/
theorem logistic_expand (z : EReal) : Ideal.div o1 (o1 + Ideal.exp (-z)) = Ideal.logistic z := by
  rw [show o1 = 1 from Ideal.ofBits_one_f32]; rfl

/-! ## The results as whole arrays -/

/-- `time_next` over the whole batch. -/
def TimeNext (x : SX.Idx → EReal) (h tc : SH.Idx → EReal)
    (WtX : SWx.Idx → EReal) (WtH : SWh.Idx → EReal) (bt : SB.Idx → EReal) : SH.Idx → EReal :=
  fun i => timeNext (tc i) (preK x h WtX WtH bt (i 0) (i 1))
/-- `h_up = h · energy` over the whole batch. -/
def HUp (x : SX.Idx → EReal) (h exc tc : SH.Idx → EReal)
    (WtX : SWx.Idx → EReal) (WtH : SWh.Idx → EReal) (bt : SB.Idx → EReal) : SH.Idx → EReal :=
  fun i => hUp (h i) (tc i) (exc i) (preK x h WtX WtH bt (i 0) (i 1))
/-- `excited` over the whole batch. -/
def Excited (x : SX.Idx → EReal) (h exc tc : SH.Idx → EReal)
    (WtX : SWx.Idx → EReal) (WtH : SWh.Idx → EReal) (bt : SB.Idx → EReal)
    (WaX : SWx.Idx → EReal) (WaH : SWh.Idx → EReal) (ba : SB.Idx → EReal) : SH.Idx → EReal :=
  fun i => excited (tc i) (exc i) (preK x h WtX WtH bt (i 0) (i 1)) (preK x h WaX WaH ba (i 0) (i 1))
/-- `h_next` over the whole batch, from the array `hup` the first kernel left. -/
def HNext (x : SX.Idx → EReal) (h hup : SH.Idx → EReal)
    (EhX : SWx.Idx → EReal) (EhH : SWh.Idx → EReal) (be : SB.Idx → EReal)
    (HwX : SWx.Idx → EReal) (HwH : SWh.Idx → EReal) (bw : SB.Idx → EReal) : SH.Idx → EReal :=
  fun i => hNext (h i) (preK x h HwX HwH bw (i 0) (i 1)) (preK x hup EhX EhH be (i 0) (i 1))

end Cert.Spec

end
-- ==== Proof.KHost.lean ====
import proofs.«167746_j13365938225768_1_alg».proof.Proof.Gen.KernelIdeal.Frame
import proofs.«167746_j13365938225768_1_alg».proof.Proof.Spec
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Hand

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Spec

variable (m : (ℓ : Loc nD τ sig) → Buf (Elt Ideal) ℓ) (ρ : Dev nD → PrngReg)

/-- The `x`-part of a weight as the host operations before the first kernel leave it: the slice of the first 1024
    columns, transposed (the change of float format is the identity). -/
theorem slice_x (W : FVec Ideal S2048x3072 .f32) :
    (truncf .bf16 (transpose S1024x2048 [1, 0] (extractStridedSlice S2048x1024 ![0, 0] W slices_S2048x3072_S2048x1024_0_0)
      transposes_S2048x1024_S1024x2048_1_0 : FVec Ideal S1024x2048 .f32) bitsLt_bf16_f32 : FVec Ideal S1024x2048 .bf16) = wx W := by
  funext i
  obtain ⟨k, j, rfl⟩ : ∃ (k : Fin 1024) (j : Fin 2048), i = ix2 k j := ⟨i 0, i 1, eq_ix2 i⟩
  rw [wx_apply]
  show transpose S1024x2048 [1, 0] (extractStridedSlice S2048x1024 ![0, 0] W slices_S2048x3072_S2048x1024_0_0) transposes_S2048x1024_S1024x2048_1_0 (ix2 k j) = _
  rw [transpose_ix2_apply]
  exact extractStridedSlice_apply _ W _ _ _ fun a => by
    match a with
    | ⟨0, _⟩ => simp
    | ⟨1, _⟩ => simp

theorem V1_v2 (c : Dev nD) : V1 m ρ c main_v2 = wx (m ((c : Thread nD τ).loc main_arg4)) := by
  rw [← slice_x]
  show StableHlo.after hostOps0 (W0 m ρ c) (Proc.devRef .tc main_v2) = _
  after_results

/-- The `h`-part of a weight as the host operations before the first kernel leave it: the slice of the last 2048
    columns, transposed. -/
theorem slice_h (W : FVec Ideal S2048x3072 .f32) :
    (truncf .bf16 (transpose S2048x2048 [1, 0] (extractStridedSlice S2048x2048 ![0, 1024] W slices_S2048x3072_S2048x2048_0_1024)
      transposes_S2048x2048_S2048x2048_1_0 : FVec Ideal S2048x2048 .f32) bitsLt_bf16_f32 : FVec Ideal S2048x2048 .bf16) = wh W := by
  funext i
  obtain ⟨k, j, rfl⟩ : ∃ (k : Fin 2048) (j : Fin 2048), i = ix2 k j := ⟨i 0, i 1, eq_ix2 i⟩
  rw [wh_apply]
  show transpose S2048x2048 [1, 0] (extractStridedSlice S2048x2048 ![0, 1024] W slices_S2048x3072_S2048x2048_0_1024) transposes_S2048x2048_S2048x2048_1_0 (ix2 k j) = _
  rw [transpose_ix2_apply]
  exact extractStridedSlice_apply _ W _ _ _ fun a => by
    match a with
    | ⟨0, _⟩ => simp
    | ⟨1, _⟩ => simp

/-! ## The first kernel's entry contents: the weights' parts, and the arguments as launched -/

theorem V1_v5 (c : Dev nD) : V1 m ρ c main_v5 = wh (m ((c : Thread nD τ).loc main_arg4)) := by
  rw [← slice_h]
  show StableHlo.after hostOps0 (W0 m ρ c) (Proc.devRef .tc main_v5) = _
  after_results

theorem V1_v8 (c : Dev nD) : V1 m ρ c main_v8 = wx (m ((c : Thread nD τ).loc main_arg6)) := by
  rw [← slice_x]
  show StableHlo.after hostOps0 (W0 m ρ c) (Proc.devRef .tc main_v8) = _
  after_results

theorem V1_v11 (c : Dev nD) : V1 m ρ c main_v11 = wh (m ((c : Thread nD τ).loc main_arg6)) := by
  rw [← slice_h]
  show StableHlo.after hostOps0 (W0 m ρ c) (Proc.devRef .tc main_v11) = _
  after_results

theorem V1_v14 (c : Dev nD) : V1 m ρ c main_v14 = wx (m ((c : Thread nD τ).loc main_arg8)) := by
  rw [← slice_x]
  show StableHlo.after hostOps0 (W0 m ρ c) (Proc.devRef .tc main_v14) = _
  after_results

theorem V1_v17 (c : Dev nD) : V1 m ρ c main_v17 = wh (m ((c : Thread nD τ).loc main_arg8)) := by
  rw [← slice_h]
  show StableHlo.after hostOps0 (W0 m ρ c) (Proc.devRef .tc main_v17) = _
  after_results

theorem V1_v20 (c : Dev nD) : V1 m ρ c main_v20 = wx (m ((c : Thread nD τ).loc main_arg10)) := by
  rw [← slice_x]
  show StableHlo.after hostOps0 (W0 m ρ c) (Proc.devRef .tc main_v20) = _
  after_results

theorem V1_v23 (c : Dev nD) : V1 m ρ c main_v23 = wh (m ((c : Thread nD τ).loc main_arg10)) := by
  rw [← slice_h]
  show StableHlo.after hostOps0 (W0 m ρ c) (Proc.devRef .tc main_v23) = _
  after_results

theorem V1_arg0 (c : Dev nD) : V1 m ρ c main_arg0 = m ((c : Thread nD τ).loc main_arg0) := by
  show StableHlo.after hostOps0 (W0 m ρ c) (Proc.devRef .tc main_arg0) = _
  after_results

theorem V1_arg1 (c : Dev nD) : V1 m ρ c main_arg1 = m ((c : Thread nD τ).loc main_arg1) := by
  show StableHlo.after hostOps0 (W0 m ρ c) (Proc.devRef .tc main_arg1) = _
  after_results

theorem V1_arg2 (c : Dev nD) : V1 m ρ c main_arg2 = m ((c : Thread nD τ).loc main_arg2) := by
  show StableHlo.after hostOps0 (W0 m ρ c) (Proc.devRef .tc main_arg2) = _
  after_results

theorem V1_arg3 (c : Dev nD) : V1 m ρ c main_arg3 = m ((c : Thread nD τ).loc main_arg3) := by
  show StableHlo.after hostOps0 (W0 m ρ c) (Proc.devRef .tc main_arg3) = _
  after_results

theorem V1_arg5 (c : Dev nD) : V1 m ρ c main_arg5 = m ((c : Thread nD τ).loc main_arg5) := by
  show StableHlo.after hostOps0 (W0 m ρ c) (Proc.devRef .tc main_arg5) = _
  after_results

theorem V1_arg7 (c : Dev nD) : V1 m ρ c main_arg7 = m ((c : Thread nD τ).loc main_arg7) := by
  show StableHlo.after hostOps0 (W0 m ρ c) (Proc.devRef .tc main_arg7) = _
  after_results

theorem V1_arg9 (c : Dev nD) : V1 m ρ c main_arg9 = m ((c : Thread nD τ).loc main_arg9) := by
  show StableHlo.after hostOps0 (W0 m ρ c) (Proc.devRef .tc main_arg9) = _
  after_results

theorem V1_arg11 (c : Dev nD) : V1 m ρ c main_arg11 = m ((c : Thread nD τ).loc main_arg11) := by
  show StableHlo.after hostOps0 (W0 m ρ c) (Proc.devRef .tc main_arg11) = _
  after_results

/-! ## The second kernel's entry contents: what the first kernel read it left alone, what it did not touch is as before -/

theorem V2_arg0 (c : Dev nD) : V2 m ρ c main_arg0 = m ((c : Thread nD τ).loc main_arg0) :=
  ((W2_arr m ρ c 0).trans (((dat0 (V1 m ρ) c).arrAt_in 0 rfl _).trans (A_eq0 (V1 m ρ) c 0))).trans (V1_arg0 m ρ c)

theorem V2_arg1 (c : Dev nD) : V2 m ρ c main_arg1 = m ((c : Thread nD τ).loc main_arg1) :=
  ((W2_arr m ρ c 1).trans (((dat0 (V1 m ρ) c).arrAt_in 1 rfl _).trans (A_eq0 (V1 m ρ) c 1))).trans (V1_arg1 m ρ c)

theorem V2_v14 (c : Dev nD) : V2 m ρ c main_v14 = V1 m ρ c main_v14 :=
  W2_of_ne m ρ c main_v14 (by decide)

theorem V2_v17 (c : Dev nD) : V2 m ρ c main_v17 = V1 m ρ c main_v17 :=
  W2_of_ne m ρ c main_v17 (by decide)

theorem V2_v20 (c : Dev nD) : V2 m ρ c main_v20 = V1 m ρ c main_v20 :=
  W2_of_ne m ρ c main_v20 (by decide)

theorem V2_v23 (c : Dev nD) : V2 m ρ c main_v23 = V1 m ρ c main_v23 :=
  W2_of_ne m ρ c main_v23 (by decide)

theorem V2_arg9 (c : Dev nD) : V2 m ρ c main_arg9 = V1 m ρ c main_arg9 :=
  W2_of_ne m ρ c main_arg9 (by decide)

theorem V2_arg11 (c : Dev nD) : V2 m ρ c main_arg11 = V1 m ρ c main_arg11 :=
  W2_of_ne m ρ c main_arg11 (by decide)

theorem V2_v24_2 (c : Dev nD) : V2 m ρ c main_v24_2 = (dat0 (V1 m ρ) c).arrAt 12 cfg0.N := W2_arr m ρ c 12

end Cert.KernelIdeal.Hand

end
-- ==== Proof.KMat.lean ====
import proofs.«167746_j13365938225768_1_alg».proof.Proof.Gen.KernelIdeal.Skeleton
import proofs.«167746_j13365938225768_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-- The left operand's row coordinate is the result's row. -/
theorem lhs_a_0 (i : S64x2048.Idx) (c : dot_S64x1024_S1024x2048_S64x2048_1_0_0_1_n_n.contr.Idx) :
    (dot_S64x1024_S1024x2048_S64x2048_1_0_0_1_n_n.lhsIdx i c 0).val = (i 0).val := by
  unfold DotDims.lhsIdx
  rw [dif_neg (show ¬(0 : Fin S64x1024.rank) ∈ dot_S64x1024_S1024x2048_S64x2048_1_0_0_1_n_n.lhsBatch by decide), dif_pos (show (0 : Fin S64x1024.rank) ∈ dot_S64x1024_S1024x2048_S64x2048_1_0_0_1_n_n.lhsNonContracting by decide)]
  rfl
/-- The left operand's column coordinate is the contracted one. -/
theorem lhs_a_1 (i : S64x2048.Idx) (c : dot_S64x1024_S1024x2048_S64x2048_1_0_0_1_n_n.contr.Idx) :
    (dot_S64x1024_S1024x2048_S64x2048_1_0_0_1_n_n.lhsIdx i c 1).val = (c ⟨0, by decide⟩).val :=
  dot_S64x1024_S1024x2048_S64x2048_1_0_0_1_n_n.lhsIdx_val_of_single rfl i c
/-- The right operand's row coordinate is the contracted one. -/
theorem rhs_a_0 (i : S64x2048.Idx) (c : dot_S64x1024_S1024x2048_S64x2048_1_0_0_1_n_n.contr.Idx) :
    (dot_S64x1024_S1024x2048_S64x2048_1_0_0_1_n_n.rhsIdx i c 0).val = (c ⟨0, by decide⟩).val :=
  dot_S64x1024_S1024x2048_S64x2048_1_0_0_1_n_n.rhsIdx_val_of_single rfl i c
/-- The right operand's column coordinate is the result's column. -/
theorem rhs_a_1 (i : S64x2048.Idx) (c : dot_S64x1024_S1024x2048_S64x2048_1_0_0_1_n_n.contr.Idx) :
    (dot_S64x1024_S1024x2048_S64x2048_1_0_0_1_n_n.rhsIdx i c 1).val = (i 1).val := by
  unfold DotDims.rhsIdx
  rw [dif_neg (show ¬(1 : Fin S1024x2048.rank) ∈ dot_S64x1024_S1024x2048_S64x2048_1_0_0_1_n_n.rhsBatch by decide), dif_pos (show (1 : Fin S1024x2048.rank) ∈ dot_S64x1024_S1024x2048_S64x2048_1_0_0_1_n_n.rhsNonContracting by decide)]
  rfl

/-- The left operand's row coordinate is the result's row. -/
theorem lhs_b_0 (i : S64x2048.Idx) (c : dot_S64x2048_S2048x2048_S64x2048_1_0_0_1_n_n.contr.Idx) :
    (dot_S64x2048_S2048x2048_S64x2048_1_0_0_1_n_n.lhsIdx i c 0).val = (i 0).val := by
  unfold DotDims.lhsIdx
  rw [dif_neg (show ¬(0 : Fin S64x2048.rank) ∈ dot_S64x2048_S2048x2048_S64x2048_1_0_0_1_n_n.lhsBatch by decide), dif_pos (show (0 : Fin S64x2048.rank) ∈ dot_S64x2048_S2048x2048_S64x2048_1_0_0_1_n_n.lhsNonContracting by decide)]
  rfl
/-- The left operand's column coordinate is the contracted one. -/
theorem lhs_b_1 (i : S64x2048.Idx) (c : dot_S64x2048_S2048x2048_S64x2048_1_0_0_1_n_n.contr.Idx) :
    (dot_S64x2048_S2048x2048_S64x2048_1_0_0_1_n_n.lhsIdx i c 1).val = (c ⟨0, by decide⟩).val :=
  dot_S64x2048_S2048x2048_S64x2048_1_0_0_1_n_n.lhsIdx_val_of_single rfl i c
/-- The right operand's row coordinate is the contracted one. -/
theorem rhs_b_0 (i : S64x2048.Idx) (c : dot_S64x2048_S2048x2048_S64x2048_1_0_0_1_n_n.contr.Idx) :
    (dot_S64x2048_S2048x2048_S64x2048_1_0_0_1_n_n.rhsIdx i c 0).val = (c ⟨0, by decide⟩).val :=
  dot_S64x2048_S2048x2048_S64x2048_1_0_0_1_n_n.rhsIdx_val_of_single rfl i c
/-- The right operand's column coordinate is the result's column. -/
theorem rhs_b_1 (i : S64x2048.Idx) (c : dot_S64x2048_S2048x2048_S64x2048_1_0_0_1_n_n.contr.Idx) :
    (dot_S64x2048_S2048x2048_S64x2048_1_0_0_1_n_n.rhsIdx i c 1).val = (i 1).val := by
  unfold DotDims.rhsIdx
  rw [dif_neg (show ¬(1 : Fin S2048x2048.rank) ∈ dot_S64x2048_S2048x2048_S64x2048_1_0_0_1_n_n.rhsBatch by decide), dif_pos (show (1 : Fin S2048x2048.rank) ∈ dot_S64x2048_S2048x2048_S64x2048_1_0_0_1_n_n.rhsNonContracting by decide)]
  rfl

/-- A block product into a zero accumulator, at row `p` and column `q`, is the sum over the contracted axis of the
    left operand's row `p` against the right operand's column `q`. -/
theorem block_a_at (a : FVec Ideal S64x1024 .bf16) (w : FVec Ideal S1024x2048 .bf16) (p : Fin 64) (q : Fin 2048) :
    (matmul dot_S64x1024_S1024x2048_S64x2048_1_0_0_1_n_n none a w (constant (F := Ideal) S64x2048 .f32 0x00000000#32) : FVec Ideal S64x2048 .f32) (ix2 p q)
      = ∑ k : Fin 1024, a (ix2 p k) * w (ix2 k q) := by
  show FloatOps.matmul dot_S64x1024_S1024x2048_S64x2048_1_0_0_1_n_n none a w (constant (F := Ideal) S64x2048 .f32 0x00000000#32) (ix2 p q) = _
  rw [Ideal.matmul_constant_zero_apply, ← Equiv.sum_comp (ValueIdx.contrEquiv1 dot_S64x1024_S1024x2048_S64x2048_1_0_0_1_n_n 1024 rfl rfl).symm]
  refine Finset.sum_congr rfl fun k _ => ?_
  have hk := ValueIdx.contrEquiv1_symm_val dot_S64x1024_S1024x2048_S64x2048_1_0_0_1_n_n 1024 rfl rfl k
  have el : dot_S64x1024_S1024x2048_S64x2048_1_0_0_1_n_n.lhsIdx (ix2 p q) ((ValueIdx.contrEquiv1 dot_S64x1024_S1024x2048_S64x2048_1_0_0_1_n_n 1024 rfl rfl).symm k) = ix2 p k := funext fun a => Fin.ext (by
    match a with
    | ⟨0, _⟩ => exact lhs_a_0 _ _
    | ⟨1, _⟩ => exact (lhs_a_1 _ _).trans hk)
  have er : dot_S64x1024_S1024x2048_S64x2048_1_0_0_1_n_n.rhsIdx (ix2 p q) ((ValueIdx.contrEquiv1 dot_S64x1024_S1024x2048_S64x2048_1_0_0_1_n_n 1024 rfl rfl).symm k) = ix2 k q := funext fun a => Fin.ext (by
    match a with
    | ⟨0, _⟩ => exact (rhs_a_0 _ _).trans hk
    | ⟨1, _⟩ => exact rhs_a_1 _ _)
  rw [el, er]

/-- A block product into a zero accumulator, at row `p` and column `q`, is the sum over the contracted axis of the
    left operand's row `p` against the right operand's column `q`. -/
theorem block_b_at (a : FVec Ideal S64x2048 .bf16) (w : FVec Ideal S2048x2048 .bf16) (p : Fin 64) (q : Fin 2048) :
    (matmul dot_S64x2048_S2048x2048_S64x2048_1_0_0_1_n_n none a w (constant (F := Ideal) S64x2048 .f32 0x00000000#32) : FVec Ideal S64x2048 .f32) (ix2 p q)
      = ∑ k : Fin 2048, a (ix2 p k) * w (ix2 k q) := by
  show FloatOps.matmul dot_S64x2048_S2048x2048_S64x2048_1_0_0_1_n_n none a w (constant (F := Ideal) S64x2048 .f32 0x00000000#32) (ix2 p q) = _
  rw [Ideal.matmul_constant_zero_apply, ← Equiv.sum_comp (ValueIdx.contrEquiv1 dot_S64x2048_S2048x2048_S64x2048_1_0_0_1_n_n 2048 rfl rfl).symm]
  refine Finset.sum_congr rfl fun k _ => ?_
  have hk := ValueIdx.contrEquiv1_symm_val dot_S64x2048_S2048x2048_S64x2048_1_0_0_1_n_n 2048 rfl rfl k
  have el : dot_S64x2048_S2048x2048_S64x2048_1_0_0_1_n_n.lhsIdx (ix2 p q) ((ValueIdx.contrEquiv1 dot_S64x2048_S2048x2048_S64x2048_1_0_0_1_n_n 2048 rfl rfl).symm k) = ix2 p k := funext fun a => Fin.ext (by
    match a with
    | ⟨0, _⟩ => exact lhs_b_0 _ _
    | ⟨1, _⟩ => exact (lhs_b_1 _ _).trans hk)
  have er : dot_S64x2048_S2048x2048_S64x2048_1_0_0_1_n_n.rhsIdx (ix2 p q) ((ValueIdx.contrEquiv1 dot_S64x2048_S2048x2048_S64x2048_1_0_0_1_n_n 2048 rfl rfl).symm k) = ix2 k q := funext fun a => Fin.ext (by
    match a with
    | ⟨0, _⟩ => exact (rhs_b_0 _ _).trans hk
    | ⟨1, _⟩ => exact rhs_b_1 _ _)
  rw [el, er]

/-- The bias, given a leading unit axis and broadcast down the 64 rows, read at row `p` and column `q` is the bias at `q`. -/
theorem bias_at (b : Vec Ideal S2048 .f32) (p : Fin 64) (q : Fin 2048) :
    (broadcastTo S64x2048 (shapeCast S1x2048 (b : FVec Ideal S2048 .f32) shapeCasts_S2048_S1x2048 : FVec Ideal S1x2048 .f32) broadcasts_S1x2048_S64x2048
      : FVec Ideal S64x2048 .f32) (ix2 p q) = b (ix1 q) := by
  rw [broadcastTo_apply _ broadcasts_S1x2048_S64x2048 (ix2 p q) (ix2 (0 : Fin 1) q) (fun a => by
    match a with
    | ⟨0, _⟩ => rfl
    | ⟨1, _⟩ => rfl)]
  exact shapeCast_apply _ shapeCasts_S2048_S1x2048 (ix2 (0 : Fin 1) q) (ix1 q) (by
    rw [Shape.rowMajor_val_two]; rfl)

/-- One gate's pre-activation on a block of 64 rows, at row `p` and column `q`: the two block products into zero
    accumulators are sums over the contracted axis, the bias is broadcast down the rows, and a change of float
    format is the identity. -/
theorem gate_at (x0 : Vec Ideal S64x1024 .f32) (x1 : Vec Ideal S64x2048 .f32) (wa : Vec Ideal S1024x2048 .bf16)
    (wb : Vec Ideal S2048x2048 .bf16) (b : Vec Ideal S2048 .f32) (p : Fin 64) (q : Fin 2048) :
    (addf (addf (matmul dot_S64x1024_S1024x2048_S64x2048_1_0_0_1_n_n none (truncf .bf16 (x0 : FVec Ideal S64x1024 .f32) bitsLt_bf16_f32 : FVec Ideal S64x1024 .bf16)
                  (shapeCast S1024x2048 wa shapeCasts_S1024x2048_S1024x2048 : FVec Ideal S1024x2048 .bf16) (constant S64x2048 .f32 0x00000000#32))
                (matmul dot_S64x2048_S2048x2048_S64x2048_1_0_0_1_n_n none (truncf .bf16 (x1 : FVec Ideal S64x2048 .f32) bitsLt_bf16_f32 : FVec Ideal S64x2048 .bf16)
                  (shapeCast S2048x2048 wb shapeCasts_S2048x2048_S2048x2048 : FVec Ideal S2048x2048 .bf16) (constant S64x2048 .f32 0x00000000#32)))
          (broadcastTo S64x2048 (shapeCast S1x2048 (b : FVec Ideal S2048 .f32) shapeCasts_S2048_S1x2048 : FVec Ideal S1x2048 .f32) broadcasts_S1x2048_S64x2048 : FVec Ideal S64x2048 .f32)
        : FVec Ideal S64x2048 .f32) (ix2 p q)
      = (∑ k : Fin 1024, x0 (ix2 p k) * wa (ix2 k q)) + (∑ k : Fin 2048, x1 (ix2 p k) * wb (ix2 k q)) + b (ix1 q) := by
  rw [addf_apply, addf_apply, shapeCast_self, shapeCast_self, block_a_at, block_b_at, bias_at]
  rfl

/-- The same pre-activation where the second left operand first passes through a shape cast to its own shape, which
    is the identity. -/
theorem gate_at' (x0 : Vec Ideal S64x1024 .f32) (x1 : Vec Ideal S64x2048 .f32) (wa : Vec Ideal S1024x2048 .bf16)
    (wb : Vec Ideal S2048x2048 .bf16) (b : Vec Ideal S2048 .f32) (p : Fin 64) (q : Fin 2048) :
    (addf (addf (matmul dot_S64x1024_S1024x2048_S64x2048_1_0_0_1_n_n none (truncf .bf16 (x0 : FVec Ideal S64x1024 .f32) bitsLt_bf16_f32 : FVec Ideal S64x1024 .bf16)
                  (shapeCast S1024x2048 wa shapeCasts_S1024x2048_S1024x2048 : FVec Ideal S1024x2048 .bf16) (constant S64x2048 .f32 0x00000000#32))
                (matmul dot_S64x2048_S2048x2048_S64x2048_1_0_0_1_n_n none (truncf .bf16 (shapeCast S64x2048 (x1 : FVec Ideal S64x2048 .f32) shapeCasts_S64x2048_S64x2048 : FVec Ideal S64x2048 .f32) bitsLt_bf16_f32 : FVec Ideal S64x2048 .bf16)
                  (shapeCast S2048x2048 wb shapeCasts_S2048x2048_S2048x2048 : FVec Ideal S2048x2048 .bf16) (constant S64x2048 .f32 0x00000000#32)))
          (broadcastTo S64x2048 (shapeCast S1x2048 (b : FVec Ideal S2048 .f32) shapeCasts_S2048_S1x2048 : FVec Ideal S1x2048 .f32) broadcasts_S1x2048_S64x2048 : FVec Ideal S64x2048 .f32)
        : FVec Ideal S64x2048 .f32) (ix2 p q)
      = (∑ k : Fin 1024, x0 (ix2 p k) * wa (ix2 k q)) + (∑ k : Fin 2048, x1 (ix2 p k) * wb (ix2 k q)) + b (ix1 q) := by
  rw [shapeCast_self (x1 : FVec Ideal S64x2048 .f32) shapeCasts_S64x2048_S64x2048]
  exact gate_at x0 x1 wa wb b p q

end Cert.KernelIdeal.Hand

end
-- ==== Proof.KReg0.lean ====
import proofs.«167746_j13365938225768_1_alg».proof.Proof.Gen.KernelIdeal.Frame
import proofs.«167746_j13365938225768_1_alg».proof.Proof.Spec
import proofs.«167746_j13365938225768_1_alg».proof.Proof.KMat
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-!
  What the first kernel leaves in its three output arrays, for any contents `V` of the buffers at the region's entry.

  At grid point `t` the body sees rows `64 t … 64 t + 63` of `x`, `h`, `exc`, `tc` and the whole of the two gates'
  weight parts and biases.  At row `p` and column `q` of the block each gate's pre-activation is the two sums over the
  contracted axes plus the bias (`gate_at`), and the rest of the body is pointwise:
    v = max (tc + tanh zt) 0 - 1,  leap = [v ≤ 0],  time_next = (1 - leap) · v,  energy = leap · exc,
    excited = max (exc - energy + logistic za) 0,  h_up = h · energy.
  Row `p` of block `t` is row `64 t + p` of the batch, so what point `t` writes back is block `t` of the
  specification's array; the 64 blocks tile the 4096 rows (row `r` lies in block `r / 64`), so each array ends holding
  the specification's.
-/

/-! ## The body's arithmetic at one row and column of a block -/

/-- The one-bit comparison against zero, widened and converted, is the indicator `leap`. -/
theorem leapVec_at (v : FVec Ideal S64x2048 .f32) (i : S64x2048.Idx) : k0_pay1 v i = leap (v i) :=
  leap_bridge _

/-- The advanced time cell of a block: the time gate's pre-activation through `tanh`, added to the time cell,
    clamped at zero, less one. -/
theorem adv_at (x0 : Vec Ideal S64x1024 .f32) (x1 x3 : Vec Ideal S64x2048 .f32) (w4 : Vec Ideal S1024x2048 .bf16)
    (w5 : Vec Ideal S2048x2048 .bf16) (b6 : Vec Ideal S2048 .f32) (p : Fin 64) (q : Fin 2048) :
    k0_pay9 x0 x1 w4 w5 b6 x3 (ix2 p q)
      = adv (x3 (ix2 p q)) ((∑ k : Fin 1024, x0 (ix2 p k) * w4 (ix2 k q)) + (∑ k : Fin 2048, x1 (ix2 p k) * w5 (ix2 k q)) + b6 (ix1 q)) := by
  unfold k0_pay9 k0_pay6 k0_pay7 adv
  exact congrArg (fun z => max (x3 (ix2 p q) + Ideal.tanh z) o0 - o1) (gate_at x0 x1 w4 w5 b6 p q)

/-- The absorb gate of a block: its pre-activation through the logistic function. -/
theorem absorb_at (x0 : Vec Ideal S64x1024 .f32) (x1 : Vec Ideal S64x2048 .f32) (w7 : Vec Ideal S1024x2048 .bf16)
    (w8 : Vec Ideal S2048x2048 .bf16) (b9 : Vec Ideal S2048 .f32) (p : Fin 64) (q : Fin 2048) :
    k0_pay8 x0 x1 w7 w8 b9 (ix2 p q)
      = Ideal.logistic ((∑ k : Fin 1024, x0 (ix2 p k) * w7 (ix2 k q)) + (∑ k : Fin 2048, x1 (ix2 p k) * w8 (ix2 k q)) + b9 (ix1 q)) := by
  unfold k0_pay8 k0_pay6 k0_pay7
  exact congrArg Ideal.logistic (gate_at x0 x1 w7 w8 b9 p q)

/-- `time_next` of a block from the advanced time cell. -/
theorem timeVec_at (v : FVec Ideal S64x2048 .f32) (i : S64x2048.Idx) : k0_pay2 v i = (o1 - leap (v i)) * v i :=
  congrArg (fun z => (o1 - z) * v i) (leapVec_at v i)

/-- The released energy of a block. -/
theorem energyVec_at (e : Vec Ideal S64x2048 .f32) (v : FVec Ideal S64x2048 .f32) (i : S64x2048.Idx) :
    k0_pay3 e v i = leap (v i) * e i :=
  congrArg (fun z => z * e i) (leapVec_at v i)

/-- `excited` of a block. -/
theorem excitedVec_at (a : FVec Ideal S64x2048 .f32) (e : Vec Ideal S64x2048 .f32) (v : FVec Ideal S64x2048 .f32) (i : S64x2048.Idx) :
    k0_pay4 a e v i = max (e i - leap (v i) * e i + a i) o0 :=
  congrArg (fun z => max (e i - z + a i) o0) (energyVec_at e v i)

/-- `h_up` of a block. -/
theorem hupVec_at (h e : Vec Ideal S64x2048 .f32) (v : FVec Ideal S64x2048 .f32) (i : S64x2048.Idx) :
    k0_pay5 h e v i = h i * (leap (v i) * e i) :=
  congrArg (fun z => h i * z) (energyVec_at e v i)

/-! ## A block of a window, read off the region's entry contents -/

/-- Row `64 t + p` of the batch: row `p` of the block of grid point `t`. -/
def row (t : Fin cfg0.N) (p : Fin 64) : Fin 4096 :=
  ⟨64 * t.val + p.val, by have ht : t.val < 64 := lt_of_lt_of_eq t.isLt N_0; have hp := p.isLt; omega⟩

theorem hz2 : (![0, 0] : Fin 2 → Nat) = fun _ => 0 := funext fun a => by fin_cases a <;> rfl
theorem hz1 : (![0] : Fin 1 → Nat) = fun _ => 0 := funext fun a => by fin_cases a; rfl

/-- The index maps of the row-blocked windows are (t, 0); of the whole-array windows, zero. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

theorem idx_whole : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ (win0_8.index t (0 : Fin 2) = 0 ∧ win0_8.index t (1 : Fin 2) = 0)
    ∧ win0_9.index t (0 : Fin 1) = 0 :=
  (by decide +kernel : ∀ t : Fin grid0.N, _)

theorem x_block (c : Dev nD) (t : Fin cfg0.N) (p : Fin 64) (k : Fin 1024) :
    (iblk0 (F := Ideal) V c 0 t : Vec Ideal S64x1024 .f32) (ix2 p k) = (V c main_arg0 : SX.Idx → EReal) (ix2 (row t p) k) := by
  have hi := (idx_rows t).1
  unfold iblk0
  rw [View.read_apply]
  show V c main_arg0 _ = V c main_arg0 _
  congr 1
  funext a
  apply Fin.ext
  match a with
  | ⟨0, _⟩ => show win0_0.index t (0 : Fin 2) * 64 + 1 * p.val = 64 * t.val + p.val; rw [hi.1]; omega
  | ⟨1, _⟩ => show win0_0.index t (1 : Fin 2) * 1024 + 1 * k.val = k.val; rw [hi.2]; omega

theorem h_block (c : Dev nD) (t : Fin cfg0.N) (p : Fin 64) (k : Fin 2048) :
    (iblk0 (F := Ideal) V c 1 t : Vec Ideal S64x2048 .f32) (ix2 p k) = (V c main_arg1 : SH.Idx → EReal) (ix2 (row t p) k) := by
  have hi := (idx_rows t).2.1
  unfold iblk0
  rw [View.read_apply]
  show V c main_arg1 _ = V c main_arg1 _
  congr 1
  funext a
  apply Fin.ext
  match a with
  | ⟨0, _⟩ => show win0_1.index t (0 : Fin 2) * 64 + 1 * p.val = 64 * t.val + p.val; rw [hi.1]; omega
  | ⟨1, _⟩ => show win0_1.index t (1 : Fin 2) * 2048 + 1 * k.val = k.val; rw [hi.2]; omega

theorem exc_block (c : Dev nD) (t : Fin cfg0.N) (p : Fin 64) (k : Fin 2048) :
    (iblk0 (F := Ideal) V c 2 t : Vec Ideal S64x2048 .f32) (ix2 p k) = (V c main_arg2 : SH.Idx → EReal) (ix2 (row t p) k) := by
  have hi := (idx_rows t).2.2.1
  unfold iblk0
  rw [View.read_apply]
  show V c main_arg2 _ = V c main_arg2 _
  congr 1
  funext a
  apply Fin.ext
  match a with
  | ⟨0, _⟩ => show win0_2.index t (0 : Fin 2) * 64 + 1 * p.val = 64 * t.val + p.val; rw [hi.1]; omega
  | ⟨1, _⟩ => show win0_2.index t (1 : Fin 2) * 2048 + 1 * k.val = k.val; rw [hi.2]; omega

theorem tc_block (c : Dev nD) (t : Fin cfg0.N) (p : Fin 64) (k : Fin 2048) :
    (iblk0 (F := Ideal) V c 3 t : Vec Ideal S64x2048 .f32) (ix2 p k) = (V c main_arg3 : SH.Idx → EReal) (ix2 (row t p) k) := by
  have hi := (idx_rows t).2.2.2.1
  unfold iblk0
  rw [View.read_apply]
  show V c main_arg3 _ = V c main_arg3 _
  congr 1
  funext a
  apply Fin.ext
  match a with
  | ⟨0, _⟩ => show win0_3.index t (0 : Fin 2) * 64 + 1 * p.val = 64 * t.val + p.val; rw [hi.1]; omega
  | ⟨1, _⟩ => show win0_3.index t (1 : Fin 2) * 2048 + 1 * k.val = k.val; rw [hi.2]; omega

theorem wtx_block (c : Dev nD) (t : Fin cfg0.N) (k : Fin 1024) (q : Fin 2048) :
    (iblk0 (F := Ideal) V c 4 t : Vec Ideal S1024x2048 .bf16) (ix2 k q) = (V c main_v2 : SWx.Idx → EReal) (ix2 k q) := by
  have hi := (idx_whole t).1
  unfold iblk0
  rw [View.read_apply]
  show V c main_v2 _ = V c main_v2 _
  congr 1
  funext a
  apply Fin.ext
  match a with
  | ⟨0, _⟩ => show win0_4.index t (0 : Fin 2) * 1024 + 1 * k.val = k.val; rw [hi.1]; omega
  | ⟨1, _⟩ => show win0_4.index t (1 : Fin 2) * 2048 + 1 * q.val = q.val; rw [hi.2]; omega

theorem wth_block (c : Dev nD) (t : Fin cfg0.N) (k : Fin 2048) (q : Fin 2048) :
    (iblk0 (F := Ideal) V c 5 t : Vec Ideal S2048x2048 .bf16) (ix2 k q) = (V c main_v5 : SWh.Idx → EReal) (ix2 k q) := by
  have hi := (idx_whole t).2.1
  unfold iblk0
  rw [View.read_apply]
  show V c main_v5 _ = V c main_v5 _
  congr 1
  funext a
  apply Fin.ext
  match a with
  | ⟨0, _⟩ => show win0_5.index t (0 : Fin 2) * 2048 + 1 * k.val = k.val; rw [hi.1]; omega
  | ⟨1, _⟩ => show win0_5.index t (1 : Fin 2) * 2048 + 1 * q.val = q.val; rw [hi.2]; omega

theorem bt_block (c : Dev nD) (t : Fin cfg0.N) (q : Fin 2048) :
    (iblk0 (F := Ideal) V c 6 t : Vec Ideal S2048 .f32) (ix1 q) = (V c main_arg5 : SB.Idx → EReal) (ix1 q) := by
  have hi := (idx_whole t).2.2.1
  unfold iblk0
  rw [View.read_apply]
  show V c main_arg5 _ = V c main_arg5 _
  congr 1
  funext a
  apply Fin.ext
  match a with
  | ⟨0, _⟩ => show win0_6.index t (0 : Fin 1) * 2048 + 1 * q.val = q.val; rw [hi]; omega

theorem wax_block (c : Dev nD) (t : Fin cfg0.N) (k : Fin 1024) (q : Fin 2048) :
    (iblk0 (F := Ideal) V c 7 t : Vec Ideal S1024x2048 .bf16) (ix2 k q) = (V c main_v8 : SWx.Idx → EReal) (ix2 k q) := by
  have hi := (idx_whole t).2.2.2.1
  unfold iblk0
  rw [View.read_apply]
  show V c main_v8 _ = V c main_v8 _
  congr 1
  funext a
  apply Fin.ext
  match a with
  | ⟨0, _⟩ => show win0_7.index t (0 : Fin 2) * 1024 + 1 * k.val = k.val; rw [hi.1]; omega
  | ⟨1, _⟩ => show win0_7.index t (1 : Fin 2) * 2048 + 1 * q.val = q.val; rw [hi.2]; omega

theorem wah_block (c : Dev nD) (t : Fin cfg0.N) (k : Fin 2048) (q : Fin 2048) :
    (iblk0 (F := Ideal) V c 8 t : Vec Ideal S2048x2048 .bf16) (ix2 k q) = (V c main_v11 : SWh.Idx → EReal) (ix2 k q) := by
  have hi := (idx_whole t).2.2.2.2.1
  unfold iblk0
  rw [View.read_apply]
  show V c main_v11 _ = V c main_v11 _
  congr 1
  funext a
  apply Fin.ext
  match a with
  | ⟨0, _⟩ => show win0_8.index t (0 : Fin 2) * 2048 + 1 * k.val = k.val; rw [hi.1]; omega
  | ⟨1, _⟩ => show win0_8.index t (1 : Fin 2) * 2048 + 1 * q.val = q.val; rw [hi.2]; omega

theorem ba_block (c : Dev nD) (t : Fin cfg0.N) (q : Fin 2048) :
    (iblk0 (F := Ideal) V c 9 t : Vec Ideal S2048 .f32) (ix1 q) = (V c main_arg7 : SB.Idx → EReal) (ix1 q) := by
  have hi := (idx_whole t).2.2.2.2.2
  unfold iblk0
  rw [View.read_apply]
  show V c main_arg7 _ = V c main_arg7 _
  congr 1
  funext a
  apply Fin.ext
  match a with
  | ⟨0, _⟩ => show win0_9.index t (0 : Fin 1) * 2048 + 1 * q.val = q.val; rw [hi]; omega

theorem out_read10 (G : SH.Idx → EReal) (t : Fin cfg0.N) (p : Fin 64) (q : Fin 2048) :
    ((cfg0.win 10).blk t).view.read (Elt Ideal) G (ix2 p q) = G (ix2 (row t p) q) := by
  have hi := (idx_rows t).2.2.2.2.1
  rw [View.read_apply]
  show G _ = G _
  congr 1
  funext a
  apply Fin.ext
  match a with
  | ⟨0, _⟩ => show win0_10.index t (0 : Fin 2) * 64 + 1 * p.val = 64 * t.val + p.val; rw [hi.1]; omega
  | ⟨1, _⟩ => show win0_10.index t (1 : Fin 2) * 2048 + 1 * q.val = q.val; rw [hi.2]; omega

theorem out_read11 (G : SH.Idx → EReal) (t : Fin cfg0.N) (p : Fin 64) (q : Fin 2048) :
    ((cfg0.win 11).blk t).view.read (Elt Ideal) G (ix2 p q) = G (ix2 (row t p) q) := by
  have hi := (idx_rows t).2.2.2.2.2.1
  rw [View.read_apply]
  show G _ = G _
  congr 1
  funext a
  apply Fin.ext
  match a with
  | ⟨0, _⟩ => show win0_11.index t (0 : Fin 2) * 64 + 1 * p.val = 64 * t.val + p.val; rw [hi.1]; omega
  | ⟨1, _⟩ => show win0_11.index t (1 : Fin 2) * 2048 + 1 * q.val = q.val; rw [hi.2]; omega

theorem out_read12 (G : SH.Idx → EReal) (t : Fin cfg0.N) (p : Fin 64) (q : Fin 2048) :
    ((cfg0.win 12).blk t).view.read (Elt Ideal) G (ix2 p q) = G (ix2 (row t p) q) := by
  have hi := (idx_rows t).2.2.2.2.2.2
  rw [View.read_apply]
  show G _ = G _
  congr 1
  funext a
  apply Fin.ext
  match a with
  | ⟨0, _⟩ => show win0_12.index t (0 : Fin 2) * 64 + 1 * p.val = 64 * t.val + p.val; rw [hi.1]; omega
  | ⟨1, _⟩ => show win0_12.index t (1 : Fin 2) * 2048 + 1 * q.val = q.val; rw [hi.2]; omega

/-! ## What one grid point writes back -/

theorem time_at (x0 : Vec Ideal S64x1024 .f32) (x1 x3 : Vec Ideal S64x2048 .f32) (w4 : Vec Ideal S1024x2048 .bf16)
    (w5 : Vec Ideal S2048x2048 .bf16) (b6 : Vec Ideal S2048 .f32) (p : Fin 64) (q : Fin 2048) :
    k0_pay2 (k0_pay9 x0 x1 w4 w5 b6 x3) (ix2 p q)
      = timeNext (x3 (ix2 p q)) ((∑ k : Fin 1024, x0 (ix2 p k) * w4 (ix2 k q)) + (∑ k : Fin 2048, x1 (ix2 p k) * w5 (ix2 k q)) + b6 (ix1 q)) := by
  rw [timeVec_at, adv_at]; rfl

theorem flushed_time (c : Dev nD) (t : Fin cfg0.N) :
    (dat0 (F := Ideal) V c).flushed 10 t
      = ((cfg0.win 10).blk t).view.read (Elt Ideal)
          (TimeNext (V c main_arg0) (V c main_arg1) (V c main_arg3) (V c main_v2) (V c main_v5) (V c main_arg5)) := by
  show (cfg0.win 10).cut (grid0.coords t) ((dat0 V c).after 10 t) = _
  rw [after0_10]
  unfold out0_10
  rw [View.canon_unit_zero hz2]
  simp only [View.ld_unit_zero (S := S64x1024) hz2, View.ld_unit_zero (S := S64x2048) hz2, View.ld_unit_zero (S := S1024x2048) hz2,
    View.ld_unit_zero (S := S2048x2048) hz2, View.ld_unit_zero (S := S2048) hz1]
  funext j
  obtain ⟨p, q, rfl⟩ : ∃ (p : Fin 64) (q : Fin 2048), j = ix2 p q := ⟨j 0, j 1, eq_ix2 j⟩
  refine (time_at _ _ _ _ _ _ p q).trans ?_
  rw [out_read10]
  simp only [x_block V c t, h_block V c t, tc_block V c t, wtx_block V c t, wth_block V c t, bt_block V c t]
  rfl

theorem excited_at (x0 : Vec Ideal S64x1024 .f32) (x1 x2 x3 : Vec Ideal S64x2048 .f32) (w4 : Vec Ideal S1024x2048 .bf16)
    (w5 : Vec Ideal S2048x2048 .bf16) (b6 : Vec Ideal S2048 .f32) (w7 : Vec Ideal S1024x2048 .bf16)
    (w8 : Vec Ideal S2048x2048 .bf16) (b9 : Vec Ideal S2048 .f32) (p : Fin 64) (q : Fin 2048) :
    k0_pay4 (k0_pay8 x0 x1 w7 w8 b9) x2 (k0_pay9 x0 x1 w4 w5 b6 x3) (ix2 p q)
      = excited (x3 (ix2 p q)) (x2 (ix2 p q))
          ((∑ k : Fin 1024, x0 (ix2 p k) * w4 (ix2 k q)) + (∑ k : Fin 2048, x1 (ix2 p k) * w5 (ix2 k q)) + b6 (ix1 q))
          ((∑ k : Fin 1024, x0 (ix2 p k) * w7 (ix2 k q)) + (∑ k : Fin 2048, x1 (ix2 p k) * w8 (ix2 k q)) + b9 (ix1 q)) := by
  rw [excitedVec_at, adv_at, absorb_at]; rfl

theorem hup_at (x0 : Vec Ideal S64x1024 .f32) (x1 x2 x3 : Vec Ideal S64x2048 .f32) (w4 : Vec Ideal S1024x2048 .bf16)
    (w5 : Vec Ideal S2048x2048 .bf16) (b6 : Vec Ideal S2048 .f32) (p : Fin 64) (q : Fin 2048) :
    k0_pay5 x1 x2 (k0_pay9 x0 x1 w4 w5 b6 x3) (ix2 p q)
      = hUp (x1 (ix2 p q)) (x3 (ix2 p q)) (x2 (ix2 p q))
          ((∑ k : Fin 1024, x0 (ix2 p k) * w4 (ix2 k q)) + (∑ k : Fin 2048, x1 (ix2 p k) * w5 (ix2 k q)) + b6 (ix1 q)) := by
  rw [hupVec_at, adv_at]; rfl

theorem flushed_excited (c : Dev nD) (t : Fin cfg0.N) :
    (dat0 (F := Ideal) V c).flushed 11 t
      = ((cfg0.win 11).blk t).view.read (Elt Ideal)
          (Excited (V c main_arg0) (V c main_arg1) (V c main_arg2) (V c main_arg3) (V c main_v2) (V c main_v5) (V c main_arg5)
            (V c main_v8) (V c main_v11) (V c main_arg7)) := by
  show (cfg0.win 11).cut (grid0.coords t) ((dat0 V c).after 11 t) = _
  rw [after0_11]
  unfold out0_11
  rw [View.canon_unit_zero hz2]
  simp only [View.ld_unit_zero (S := S64x1024) hz2, View.ld_unit_zero (S := S64x2048) hz2, View.ld_unit_zero (S := S1024x2048) hz2,
    View.ld_unit_zero (S := S2048x2048) hz2, View.ld_unit_zero (S := S2048) hz1]
  funext j
  obtain ⟨p, q, rfl⟩ : ∃ (p : Fin 64) (q : Fin 2048), j = ix2 p q := ⟨j 0, j 1, eq_ix2 j⟩
  refine (excited_at _ _ _ _ _ _ _ _ _ _ p q).trans ?_
  rw [out_read11]
  simp only [x_block V c t, h_block V c t, exc_block V c t, tc_block V c t, wtx_block V c t, wth_block V c t, bt_block V c t,
    wax_block V c t, wah_block V c t, ba_block V c t]
  rfl

theorem flushed_hup (c : Dev nD) (t : Fin cfg0.N) :
    (dat0 (F := Ideal) V c).flushed 12 t
      = ((cfg0.win 12).blk t).view.read (Elt Ideal)
          (HUp (V c main_arg0) (V c main_arg1) (V c main_arg2) (V c main_arg3) (V c main_v2) (V c main_v5) (V c main_arg5)) := by
  show (cfg0.win 12).cut (grid0.coords t) ((dat0 V c).after 12 t) = _
  rw [after0_12]
  unfold out0_12
  rw [View.canon_unit_zero hz2]
  simp only [View.ld_unit_zero (S := S64x1024) hz2, View.ld_unit_zero (S := S64x2048) hz2, View.ld_unit_zero (S := S1024x2048) hz2,
    View.ld_unit_zero (S := S2048x2048) hz2, View.ld_unit_zero (S := S2048) hz1]
  funext j
  obtain ⟨p, q, rfl⟩ : ∃ (p : Fin 64) (q : Fin 2048), j = ix2 p q := ⟨j 0, j 1, eq_ix2 j⟩
  refine (hup_at _ _ _ _ _ _ _ p q).trans ?_
  rw [out_read12]
  simp only [x_block V c t, h_block V c t, exc_block V c t, tc_block V c t, wtx_block V c t, wth_block V c t, bt_block V c t]
  rfl

/-! ## The blocks of the 64 grid points tile each output array -/

theorem mem_blk10 (t : Fin cfg0.N) (i : S4096x2048.Idx) :
    i ∈ ((cfg0.win 10).blk t).view.set
      ↔ ∀ a : Fin 2, win0_10.index t a * S64x2048.size a ≤ (i a).val ∧ (i a).val < win0_10.index t a * S64x2048.size a + S64x2048.size a := by
  show i ∈ ((View.whole main_v24_0).slice (win0_10.rect t)).set ↔ _
  rw [View.set_slice_whole, Rect.mem_set_unit]
  exact Iff.rfl

theorem cover10 (i : S4096x2048.Idx) :
    ∃ t : Fin cfg0.N, (cfg0.win 10).flush t = true ∧ i ∈ ((cfg0.win 10).blk t).view.set := by
  have h0 : (i 0).val < 4096 := (i 0).isLt
  have h1 : (i 1).val < 2048 := (i 1).isLt
  obtain ⟨t, ht⟩ : ∃ t : Fin cfg0.N, t.val = (i 0).val / 64 :=
    ⟨⟨(i 0).val / 64, by show _ < grid0.N; rw [N_0]; omega⟩, rfl⟩
  have hi := (idx_rows t).2.2.2.2.1
  refine ⟨t, flush0_10 t, ?_⟩
  rw [mem_blk10]
  intro a
  match a with
  | ⟨0, _⟩ =>
    show win0_10.index t (0 : Fin 2) * 64 ≤ (i 0).val ∧ (i 0).val < win0_10.index t (0 : Fin 2) * 64 + 64
    rw [hi.1, ht]; omega
  | ⟨1, _⟩ =>
    show win0_10.index t (1 : Fin 2) * 2048 ≤ (i 1).val ∧ (i 1).val < win0_10.index t (1 : Fin 2) * 2048 + 2048
    rw [hi.2]; omega

theorem mem_blk11 (t : Fin cfg0.N) (i : S4096x2048.Idx) :
    i ∈ ((cfg0.win 11).blk t).view.set
      ↔ ∀ a : Fin 2, win0_11.index t a * S64x2048.size a ≤ (i a).val ∧ (i a).val < win0_11.index t a * S64x2048.size a + S64x2048.size a := by
  show i ∈ ((View.whole main_v24_1).slice (win0_11.rect t)).set ↔ _
  rw [View.set_slice_whole, Rect.mem_set_unit]
  exact Iff.rfl

theorem cover11 (i : S4096x2048.Idx) :
    ∃ t : Fin cfg0.N, (cfg0.win 11).flush t = true ∧ i ∈ ((cfg0.win 11).blk t).view.set := by
  have h0 : (i 0).val < 4096 := (i 0).isLt
  have h1 : (i 1).val < 2048 := (i 1).isLt
  obtain ⟨t, ht⟩ : ∃ t : Fin cfg0.N, t.val = (i 0).val / 64 :=
    ⟨⟨(i 0).val / 64, by show _ < grid0.N; rw [N_0]; omega⟩, rfl⟩
  have hi := (idx_rows t).2.2.2.2.2.1
  refine ⟨t, flush0_11 t, ?_⟩
  rw [mem_blk11]
  intro a
  match a with
  | ⟨0, _⟩ =>
    show win0_11.index t (0 : Fin 2) * 64 ≤ (i 0).val ∧ (i 0).val < win0_11.index t (0 : Fin 2) * 64 + 64
    rw [hi.1, ht]; omega
  | ⟨1, _⟩ =>
    show win0_11.index t (1 : Fin 2) * 2048 ≤ (i 1).val ∧ (i 1).val < win0_11.index t (1 : Fin 2) * 2048 + 2048
    rw [hi.2]; omega

theorem mem_blk12 (t : Fin cfg0.N) (i : S4096x2048.Idx) :
    i ∈ ((cfg0.win 12).blk t).view.set
      ↔ ∀ a : Fin 2, win0_12.index t a * S64x2048.size a ≤ (i a).val ∧ (i a).val < win0_12.index t a * S64x2048.size a + S64x2048.size a := by
  show i ∈ ((View.whole main_v24_2).slice (win0_12.rect t)).set ↔ _
  rw [View.set_slice_whole, Rect.mem_set_unit]
  exact Iff.rfl

theorem cover12 (i : S4096x2048.Idx) :
    ∃ t : Fin cfg0.N, (cfg0.win 12).flush t = true ∧ i ∈ ((cfg0.win 12).blk t).view.set := by
  have h0 : (i 0).val < 4096 := (i 0).isLt
  have h1 : (i 1).val < 2048 := (i 1).isLt
  obtain ⟨t, ht⟩ : ∃ t : Fin cfg0.N, t.val = (i 0).val / 64 :=
    ⟨⟨(i 0).val / 64, by show _ < grid0.N; rw [N_0]; omega⟩, rfl⟩
  have hi := (idx_rows t).2.2.2.2.2.2
  refine ⟨t, flush0_12 t, ?_⟩
  rw [mem_blk12]
  intro a
  match a with
  | ⟨0, _⟩ =>
    show win0_12.index t (0 : Fin 2) * 64 ≤ (i 0).val ∧ (i 0).val < win0_12.index t (0 : Fin 2) * 64 + 64
    rw [hi.1, ht]; omega
  | ⟨1, _⟩ =>
    show win0_12.index t (1 : Fin 2) * 2048 ≤ (i 1).val ∧ (i 1).val < win0_12.index t (1 : Fin 2) * 2048 + 2048
    rw [hi.2]; omega

/-- After the first kernel's 64 grid points the `time_next` array holds `TimeNext` of the region's entry contents. -/
theorem reg0_time (c : Dev nD) :
    (dat0 (F := Ideal) V c).arrAt 10 cfg0.N
      = TimeNext (V c main_arg0) (V c main_arg1) (V c main_arg3) (V c main_v2) (V c main_v5) (V c main_arg5) :=
  (dat0 (F := Ideal) V c).arrAt_eq_of_cover 10 _ (fun t _ => flushed_time V c t) cover10

/-- … the `excited` array holds `Excited` … -/
theorem reg0_excited (c : Dev nD) :
    (dat0 (F := Ideal) V c).arrAt 11 cfg0.N
      = Excited (V c main_arg0) (V c main_arg1) (V c main_arg2) (V c main_arg3) (V c main_v2) (V c main_v5) (V c main_arg5)
          (V c main_v8) (V c main_v11) (V c main_arg7) :=
  (dat0 (F := Ideal) V c).arrAt_eq_of_cover 11 _ (fun t _ => flushed_excited V c t) cover11

/-- … and the `h_up` array holds `HUp`. -/
theorem reg0_hup (c : Dev nD) :
    (dat0 (F := Ideal) V c).arrAt 12 cfg0.N
      = HUp (V c main_arg0) (V c main_arg1) (V c main_arg2) (V c main_arg3) (V c main_v2) (V c main_v5) (V c main_arg5) :=
  (dat0 (F := Ideal) V c).arrAt_eq_of_cover 12 _ (fun t _ => flushed_hup V c t) cover12

end Cert.KernelIdeal.Hand

end
-- ==== Proof.KReg1.lean ====
import proofs.«167746_j13365938225768_1_alg».proof.Proof.Gen.KernelIdeal.Frame
import proofs.«167746_j13365938225768_1_alg».proof.Proof.Spec
import proofs.«167746_j13365938225768_1_alg».proof.Proof.KMat
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-! ## The body's arithmetic at one row and column of a block

With the nine loaded blocks as variables, the value at row `p`, column `q` is the cell's `hNext` of the block's own
`h` entry, the mixing gate's pre-activation (on `[x | h]`) and the state gate's pre-activation (on `[x | h_up]`);
a shape cast to the same shape is the identity. -/

/-- The payload at `(p, q)` of the block. -/
theorem reg1_pay_at (x0 : Vec Ideal S64x1024 .f32) (x1 x2 : Vec Ideal S64x2048 .f32)
    (w3 : Vec Ideal S1024x2048 .bf16) (w4 : Vec Ideal S2048x2048 .bf16) (b5 : Vec Ideal S2048 .f32)
    (w6 : Vec Ideal S1024x2048 .bf16) (w7 : Vec Ideal S2048x2048 .bf16) (b8 : Vec Ideal S2048 .f32)
    (p : Fin 64) (q : Fin 2048) :
    k1_pay1 (F := Ideal) x0 x1 x2 w3 w4 b5 w6 w7 b8 (ix2 p q)
      = hNext (x2 (ix2 p q))
          ((∑ k : Fin 1024, x0 (ix2 p k) * w6 (ix2 k q)) + (∑ k : Fin 2048, x2 (ix2 p k) * w7 (ix2 k q)) + b8 (ix1 q))
          ((∑ k : Fin 1024, x0 (ix2 p k) * w3 (ix2 k q)) + (∑ k : Fin 2048, x1 (ix2 p k) * w4 (ix2 k q)) + b5 (ix1 q)) := by
  unfold k1_pay1 hNext
  rw [shapeCast_self x1, ← gate_at x0 x2 w6 w7 b8 p q, ← gate_at x0 x1 w3 w4 b5 p q]
  rfl

/-! ## The blocks a point reads

Point `t` reads rows `64 t … 64 t + 63` of `x`, `h_up` and `h`, and the whole of each weight part and bias: a block's
coordinate on an axis is the block index times the block's size plus the coordinate inside the block. -/

/-- The grid has 64 points. -/
theorem reg1_t_lt (t : Fin cfg1.N) : t.val < 64 := N_1 ▸ t.isLt

/-- The row of the array that row `p` of point `t`'s block is. -/
abbrev reg1_row (t : Fin cfg1.N) (p : Fin 64) : Fin 4096 := ⟨64 * t.val + p.val, by have := reg1_t_lt t; have := p.isLt; omega⟩

/-- The index maps over the grid: the three row-blocked inputs and the output sit at block `(t, 0)`, the weights and
    biases at block 0. -/
theorem reg1_idx : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ win1_5.index t (0 : Fin 1) = 0
    ∧ (win1_6.index t (0 : Fin 2) = 0 ∧ win1_6.index t (1 : Fin 2) = 0)
    ∧ (win1_7.index t (0 : Fin 2) = 0 ∧ win1_7.index t (1 : Fin 2) = 0)
    ∧ win1_8.index t (0 : Fin 1) = 0
    ∧ (win1_9.index t (0 : Fin 2) = t.val ∧ win1_9.index t (1 : Fin 2) = 0) :=
  (by decide +kernel : ∀ t : Fin grid1.N, _)

/-- Window 0 (`x`): rows `64 t …` of the array. -/
theorem reg1_blk0 (c : Dev nD) (t : Fin cfg1.N) (p : Fin 64) (k : Fin 1024) :
    (iblk1 (F := Ideal) V c 0 t : Vec Ideal S64x1024 .f32) (ix2 p k) = V c main_arg0 (ix2 (reg1_row t p) k) := by
  unfold iblk1
  rw [View.read_apply]
  show V c main_arg0 _ = V c main_arg0 _
  congr 1
  funext a; apply Fin.ext
  match a with
  | ⟨0, _⟩ => show win1_0.index t (0 : Fin 2) * 64 + 1 * p.val = 64 * t.val + p.val; rw [(reg1_idx t).1.1]; omega
  | ⟨1, _⟩ => show win1_0.index t (1 : Fin 2) * 1024 + 1 * k.val = k.val; rw [(reg1_idx t).1.2]; omega

theorem reg1_blk1 (c : Dev nD) (t : Fin cfg1.N) (p : Fin 64) (k : Fin 2048) :
    (iblk1 (F := Ideal) V c 1 t : Vec Ideal S64x2048 .f32) (ix2 p k) = V c main_v24_2 (ix2 (reg1_row t p) k) := by
  unfold iblk1
  rw [View.read_apply]
  show V c main_v24_2 _ = V c main_v24_2 _
  congr 1
  funext a; apply Fin.ext
  match a with
  | ⟨0, _⟩ => show win1_1.index t (0 : Fin 2) * 64 + 1 * p.val = 64 * t.val + p.val; rw [(reg1_idx t).2.1.1]; omega
  | ⟨1, _⟩ => show win1_1.index t (1 : Fin 2) * 2048 + 1 * k.val = k.val; rw [(reg1_idx t).2.1.2]; omega

theorem reg1_blk2 (c : Dev nD) (t : Fin cfg1.N) (p : Fin 64) (k : Fin 2048) :
    (iblk1 (F := Ideal) V c 2 t : Vec Ideal S64x2048 .f32) (ix2 p k) = V c main_arg1 (ix2 (reg1_row t p) k) := by
  unfold iblk1
  rw [View.read_apply]
  show V c main_arg1 _ = V c main_arg1 _
  congr 1
  funext a; apply Fin.ext
  match a with
  | ⟨0, _⟩ => show win1_2.index t (0 : Fin 2) * 64 + 1 * p.val = 64 * t.val + p.val; rw [(reg1_idx t).2.2.1.1]; omega
  | ⟨1, _⟩ => show win1_2.index t (1 : Fin 2) * 2048 + 1 * k.val = k.val; rw [(reg1_idx t).2.2.1.2]; omega

theorem reg1_blk3 (c : Dev nD) (t : Fin cfg1.N) (k : Fin 1024) (q : Fin 2048) :
    (iblk1 (F := Ideal) V c 3 t : Vec Ideal S1024x2048 .bf16) (ix2 k q) = V c main_v14 (ix2 k q) := by
  unfold iblk1
  rw [View.read_apply]
  show V c main_v14 _ = V c main_v14 _
  congr 1
  funext a; apply Fin.ext
  match a with
  | ⟨0, _⟩ => show win1_3.index t (0 : Fin 2) * 1024 + 1 * k.val = k.val; rw [(reg1_idx t).2.2.2.1.1]; omega
  | ⟨1, _⟩ => show win1_3.index t (1 : Fin 2) * 2048 + 1 * q.val = q.val; rw [(reg1_idx t).2.2.2.1.2]; omega

theorem reg1_blk4 (c : Dev nD) (t : Fin cfg1.N) (k : Fin 2048) (q : Fin 2048) :
    (iblk1 (F := Ideal) V c 4 t : Vec Ideal S2048x2048 .bf16) (ix2 k q) = V c main_v17 (ix2 k q) := by
  unfold iblk1
  rw [View.read_apply]
  show V c main_v17 _ = V c main_v17 _
  congr 1
  funext a; apply Fin.ext
  match a with
  | ⟨0, _⟩ => show win1_4.index t (0 : Fin 2) * 2048 + 1 * k.val = k.val; rw [(reg1_idx t).2.2.2.2.1.1]; omega
  | ⟨1, _⟩ => show win1_4.index t (1 : Fin 2) * 2048 + 1 * q.val = q.val; rw [(reg1_idx t).2.2.2.2.1.2]; omega

theorem reg1_blk5 (c : Dev nD) (t : Fin cfg1.N) (q : Fin 2048) :
    (iblk1 (F := Ideal) V c 5 t : Vec Ideal S2048 .f32) (ix1 q) = V c main_arg9 (ix1 q) := by
  unfold iblk1
  rw [View.read_apply]
  show V c main_arg9 _ = V c main_arg9 _
  congr 1
  funext a; apply Fin.ext
  match a with
  | ⟨0, _⟩ => show win1_5.index t (0 : Fin 1) * 2048 + 1 * q.val = q.val; rw [(reg1_idx t).2.2.2.2.2.1]; omega

theorem reg1_blk6 (c : Dev nD) (t : Fin cfg1.N) (k : Fin 1024) (q : Fin 2048) :
    (iblk1 (F := Ideal) V c 6 t : Vec Ideal S1024x2048 .bf16) (ix2 k q) = V c main_v20 (ix2 k q) := by
  unfold iblk1
  rw [View.read_apply]
  show V c main_v20 _ = V c main_v20 _
  congr 1
  funext a; apply Fin.ext
  match a with
  | ⟨0, _⟩ => show win1_6.index t (0 : Fin 2) * 1024 + 1 * k.val = k.val; rw [(reg1_idx t).2.2.2.2.2.2.1.1]; omega
  | ⟨1, _⟩ => show win1_6.index t (1 : Fin 2) * 2048 + 1 * q.val = q.val; rw [(reg1_idx t).2.2.2.2.2.2.1.2]; omega

theorem reg1_blk7 (c : Dev nD) (t : Fin cfg1.N) (k : Fin 2048) (q : Fin 2048) :
    (iblk1 (F := Ideal) V c 7 t : Vec Ideal S2048x2048 .bf16) (ix2 k q) = V c main_v23 (ix2 k q) := by
  unfold iblk1
  rw [View.read_apply]
  show V c main_v23 _ = V c main_v23 _
  congr 1
  funext a; apply Fin.ext
  match a with
  | ⟨0, _⟩ => show win1_7.index t (0 : Fin 2) * 2048 + 1 * k.val = k.val; rw [(reg1_idx t).2.2.2.2.2.2.2.1.1]; omega
  | ⟨1, _⟩ => show win1_7.index t (1 : Fin 2) * 2048 + 1 * q.val = q.val; rw [(reg1_idx t).2.2.2.2.2.2.2.1.2]; omega

theorem reg1_blk8 (c : Dev nD) (t : Fin cfg1.N) (q : Fin 2048) :
    (iblk1 (F := Ideal) V c 8 t : Vec Ideal S2048 .f32) (ix1 q) = V c main_arg11 (ix1 q) := by
  unfold iblk1
  rw [View.read_apply]
  show V c main_arg11 _ = V c main_arg11 _
  congr 1
  funext a; apply Fin.ext
  match a with
  | ⟨0, _⟩ => show win1_8.index t (0 : Fin 1) * 2048 + 1 * q.val = q.val; rw [(reg1_idx t).2.2.2.2.2.2.2.2.1]; omega

/-! ## What a point writes back, and the whole array -/

/-- Where row `p`, column `q` of point `t`'s output block sits in the array. -/
theorem reg1_emb (t : Fin cfg1.N) (p : Fin 64) (q : Fin 2048) :
    ((cfg1.win 9).blk t).view.emb (ix2 p q : S64x2048.Idx) = (ix2 (reg1_row t p) q : SH.Idx) := by
  funext a; apply Fin.ext
  match a with
  | ⟨0, _⟩ => show win1_9.index t (0 : Fin 2) * 64 + 1 * p.val = 64 * t.val + p.val; rw [(reg1_idx t).2.2.2.2.2.2.2.2.2.1]; omega
  | ⟨1, _⟩ => show win1_9.index t (1 : Fin 2) * 2048 + 1 * q.val = q.val; rw [(reg1_idx t).2.2.2.2.2.2.2.2.2.2]; omega

/-- The zero offsets of the loads and the store, as constant functions. -/
theorem reg1_hz2 : (![0, 0] : Fin 2 → Nat) = fun _ => 0 := funext fun a => by fin_cases a <;> rfl
theorem reg1_hz1 : (![0] : Fin 1 → Nat) = fun _ => 0 := funext fun a => by fin_cases a; rfl

/-- What point `t` writes back is block `t` of `HNext` of the region's entry contents. -/
theorem reg1_flushed (c : Dev nD) (t : Fin cfg1.N) :
    (dat1 (F := Ideal) V c).flushed 9 t = ((cfg1.win 9).blk t).view.read (Elt Ideal)
      (HNext (V c main_arg0) (V c main_arg1) (V c main_v24_2) (V c main_v14) (V c main_v17) (V c main_arg9)
        (V c main_v20) (V c main_v23) (V c main_arg11)) := by
  show (cfg1.win 9).cut (grid1.coords t) ((dat1 (F := Ideal) V c).after 9 t) = _
  rw [after1_9]
  unfold out1_9
  rw [View.canon_unit_zero reg1_hz2]
  simp only [View.ld_unit_zero (S := S64x1024) reg1_hz2, View.ld_unit_zero (S := S64x2048) reg1_hz2,
    View.ld_unit_zero (S := S1024x2048) reg1_hz2, View.ld_unit_zero (S := S2048x2048) reg1_hz2, View.ld_unit_zero (S := S2048) reg1_hz1]
  funext j
  obtain ⟨p, q, rfl⟩ : ∃ (p : Fin 64) (q : Fin 2048), j = ix2 p q := ⟨j 0, j 1, eq_ix2 j⟩
  rw [View.read_apply]
  refine (reg1_pay_at _ _ _ _ _ _ _ _ _ p q).trans ?_
  rw [show ((View.whole main_v25).slice ((win1 9).rect t)).emb (ix2 p q : S64x2048.Idx) = (ix2 (reg1_row t p) q : SH.Idx) from reg1_emb t p q]
  unfold HNext preK
  simp only [reg1_blk0, reg1_blk1, reg1_blk2, reg1_blk3, reg1_blk4, reg1_blk5, reg1_blk6, reg1_blk7, reg1_blk8]
  rfl

/-- An index of the array is in point `t`'s block iff each coordinate is in the block's range on its axis. -/
theorem reg1_mem_blk (t : Fin cfg1.N) (i : SH.Idx) :
    i ∈ ((cfg1.win 9).blk t).view.set ↔ ∀ a : Fin 2, win1_9.index t a * S64x2048.size a ≤ (i a).val
      ∧ (i a).val < win1_9.index t a * S64x2048.size a + S64x2048.size a := by
  show i ∈ ((View.whole main_v25).slice (win1_9.rect t)).set ↔ _
  rw [View.set_slice_whole, Rect.mem_set_unit]
  exact Iff.rfl

/-- Row `r` of the array is in the block of point `r / 64`. -/
theorem reg1_cover (i : SH.Idx) : ∃ t : Fin cfg1.N, (cfg1.win 9).flush t = true ∧ i ∈ ((cfg1.win 9).blk t).view.set := by
  have hi0 : (i 0).val < 4096 := (i 0).isLt
  have hi1 : (i 1).val < 2048 := (i 1).isLt
  obtain ⟨t, ht⟩ : ∃ t : Fin cfg1.N, t.val = (i 0).val / 64 :=
    ⟨⟨(i 0).val / 64, by rw [show cfg1.N = 64 from N_1]; omega⟩, rfl⟩
  refine ⟨t, flush1_9 t, ?_⟩
  rw [reg1_mem_blk]
  have e := (reg1_idx t).2.2.2.2.2.2.2.2.2
  intro a
  match a with
  | ⟨0, _⟩ =>
    show win1_9.index t (0 : Fin 2) * 64 ≤ (i 0).val ∧ (i 0).val < win1_9.index t (0 : Fin 2) * 64 + 64
    rw [e.1]; omega
  | ⟨1, _⟩ =>
    show win1_9.index t (1 : Fin 2) * 2048 ≤ (i 1).val ∧ (i 1).val < win1_9.index t (1 : Fin 2) * 2048 + 2048
    rw [e.2]; omega

/-- After the second kernel's 64 grid points the `h_next` array holds `HNext` of the region's entry contents
    (`main_v24_2` is the `h_up` array the first kernel left). -/
theorem reg1_hnext (c : Dev nD) :
    (dat1 (F := Ideal) V c).arrAt 9 cfg1.N
      = HNext (V c main_arg0) (V c main_arg1) (V c main_v24_2) (V c main_v14) (V c main_v17) (V c main_arg9)
          (V c main_v20) (V c main_v23) (V c main_arg11) :=
  (dat1 (F := Ideal) V c).arrAt_eq_of_cover 9 _ (fun t _ => reg1_flushed V c t) reg1_cover

end Cert.KernelIdeal.Hand

end
-- ==== Proof.KValue.lean ====
/-
  What the kernel program's three result buffers hold after the run, as the specification's arrays of the launch
  contents of the twelve arguments: the last boundary's contents `W3` read at each result buffer walk back through the
  two kernels' exits to what each kernel leaves (one whole-array function of its entry contents) and through the host
  operations before the first kernel (the weights' two transposed parts).
-/
import proofs.«167746_j13365938225768_1_alg».proof.Proof.KHost
import proofs.«167746_j13365938225768_1_alg».proof.Proof.KReg0
import proofs.«167746_j13365938225768_1_alg».proof.Proof.KReg1

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg)

/-- `time_next` of the launch contents. -/
abbrev timeNextOf (c : Dev nD) : SH.Idx → EReal :=
  TimeNext (m ((c : Thread nD τ).loc main_arg0)) (m ((c : Thread nD τ).loc main_arg1)) (m ((c : Thread nD τ).loc main_arg3)) (wx (m ((c : Thread nD τ).loc main_arg4))) (wh (m ((c : Thread nD τ).loc main_arg4))) (m ((c : Thread nD τ).loc main_arg5))
/-- `h_up` of the launch contents. -/
abbrev hUpOf (c : Dev nD) : SH.Idx → EReal :=
  HUp (m ((c : Thread nD τ).loc main_arg0)) (m ((c : Thread nD τ).loc main_arg1)) (m ((c : Thread nD τ).loc main_arg2)) (m ((c : Thread nD τ).loc main_arg3)) (wx (m ((c : Thread nD τ).loc main_arg4))) (wh (m ((c : Thread nD τ).loc main_arg4))) (m ((c : Thread nD τ).loc main_arg5))
/-- `excited` of the launch contents. -/
abbrev excitedOf (c : Dev nD) : SH.Idx → EReal :=
  Excited (m ((c : Thread nD τ).loc main_arg0)) (m ((c : Thread nD τ).loc main_arg1)) (m ((c : Thread nD τ).loc main_arg2)) (m ((c : Thread nD τ).loc main_arg3)) (wx (m ((c : Thread nD τ).loc main_arg4))) (wh (m ((c : Thread nD τ).loc main_arg4))) (m ((c : Thread nD τ).loc main_arg5)) (wx (m ((c : Thread nD τ).loc main_arg6))) (wh (m ((c : Thread nD τ).loc main_arg6))) (m ((c : Thread nD τ).loc main_arg7))
/-- `h_next` of the launch contents. -/
abbrev hNextOf (c : Dev nD) : SH.Idx → EReal :=
  HNext (m ((c : Thread nD τ).loc main_arg0)) (m ((c : Thread nD τ).loc main_arg1)) (hUpOf m c) (wx (m ((c : Thread nD τ).loc main_arg8))) (wh (m ((c : Thread nD τ).loc main_arg8))) (m ((c : Thread nD τ).loc main_arg9)) (wx (m ((c : Thread nD τ).loc main_arg10))) (wh (m ((c : Thread nD τ).loc main_arg10))) (m ((c : Thread nD τ).loc main_arg11))

/-- The first kernel leaves `time_next`; the second kernel does not touch that buffer. -/
theorem W3_time (c : Dev nD) : W3 m ρ c (Proc.devRef .tc main_v24_0) = timeNextOf m c := by
  refine (W3_of_ne m ρ c main_v24_0 (by decide)).trans ((W2_arr m ρ c 10).trans ((reg0_time (V1 m ρ) c).trans ?_))
  rw [V1_arg0, V1_arg1, V1_arg3, V1_v2, V1_v5, V1_arg5]

/-- The first kernel leaves `excited`; the second kernel does not touch that buffer. -/
theorem W3_excited (c : Dev nD) : W3 m ρ c (Proc.devRef .tc main_v24_1) = excitedOf m c := by
  refine (W3_of_ne m ρ c main_v24_1 (by decide)).trans ((W2_arr m ρ c 11).trans ((reg0_excited (V1 m ρ) c).trans ?_))
  rw [V1_arg0, V1_arg1, V1_arg2, V1_arg3, V1_v2, V1_v5, V1_arg5, V1_v8, V1_v11, V1_arg7]

/-- The `h_up` array the second kernel finds is what the first kernel left. -/
theorem V2_hup (c : Dev nD) : V2 m ρ c main_v24_2 = hUpOf m c := by
  refine (V2_v24_2 m ρ c).trans ((reg0_hup (V1 m ρ) c).trans ?_)
  rw [V1_arg0, V1_arg1, V1_arg2, V1_arg3, V1_v2, V1_v5, V1_arg5]

/-- The second kernel leaves `h_next`. -/
theorem W3_hnext (c : Dev nD) : W3 m ρ c (Proc.devRef .tc main_v25) = hNextOf m c := by
  refine (W3_arr m ρ c 9).trans ((reg1_hnext (V2 m ρ) c).trans ?_)
  rw [V2_arg0, V2_arg1, V2_hup, V2_v14, V2_v17, V2_arg9, V2_v20, V2_v23, V2_arg11,
    V1_v14, V1_v17, V1_arg9, V1_v20, V1_v23, V1_arg11]

end Cert.KernelIdeal.Hand

end
-- ==== Proof.RefValue.lean ====
import proofs.«167746_j13365938225768_1_alg».proof.Proof.Gen.ReferenceIdeal.Read
import proofs.«167746_j13365938225768_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read Cert.Spec

variable (x0 : FVec Ideal S4096x1024 .f32) (x1 x2 x3 : FVec Ideal S4096x2048 .f32)
  (x4 x6 x8 x10 : FVec Ideal S2048x3072 .f32) (x5 x7 x9 x11 : FVec Ideal S2048 .f32)

/-! ## One gate: the joined row against the transposed weight is the two sums of the specification -/

/-- The joined array `[x | h]` at a column below 1024 is `x` at the same coordinates. -/
theorem cat_left (x : FVec Ideal S4096x1024 .f32) (h : FVec Ideal S4096x2048 .f32) (r : Fin 4096) (k : Fin 1024) :
    concatenate S4096x3072 1 [⟨S4096x1024, x⟩, ⟨S4096x2048, h⟩] Gen.concatenates_S4096x1024_S4096x2048_S4096x3072_d1
      (ix2 r (⟨k.val, by omega⟩ : Fin 3072)) = x (ix2 r k) := by
  refine concatenate_pair_apply_left (t := S4096x3072) 1 x h Gen.concatenates_S4096x1024_S4096x2048_S4096x3072_d1 _ rfl (ix2 r k) ?_
  intro b
  match b with
  | ⟨0, _⟩ => rfl
  | ⟨1, _⟩ => rfl

/-- The joined array `[x | h]` at a column `1024 + k` is `h` at column `k`. -/
theorem cat_right (x : FVec Ideal S4096x1024 .f32) (h : FVec Ideal S4096x2048 .f32) (r : Fin 4096) (k : Fin 2048) :
    concatenate S4096x3072 1 [⟨S4096x1024, x⟩, ⟨S4096x2048, h⟩] Gen.concatenates_S4096x1024_S4096x2048_S4096x3072_d1
      (ix2 r (⟨1024 + k.val, by omega⟩ : Fin 3072)) = h (ix2 r k) := by
  refine concatenate_pair_apply_right (t := S4096x3072) 1 x h Gen.concatenates_S4096x1024_S4096x2048_S4096x3072_d1 _ rfl rfl (ix2 r k) ?_ ?_
  · intro b hb
    match b, hb with
    | ⟨0, _⟩, _ => rfl
    | ⟨1, _⟩, hb => exact absurd rfl hb
  · show k.val + 1024 = 1024 + k.val
    omega

/-- The transposed weight at row `k`, column `j` is the weight at row `j`, column `k`. -/
theorem tr_apply (W : FVec Ideal S2048x3072 .f32) (k : Fin 3072) (j : Fin 2048) :
    transpose S3072x2048 [1, 0] W Gen.transposes_S2048x3072_S3072x2048_1_0 (ix2 k j) = W (ix2 j k) := by
  refine transpose_apply [1, 0] W Gen.transposes_S2048x3072_S3072x2048_1_0 (ix2 k j) (ix2 j k) ?_
  intro b
  match b with
  | ⟨0, _⟩ => rfl
  | ⟨1, _⟩ => rfl

theorem lidx_ix2 (r : Fin 4096) (j : Fin 2048) (k : Fin 3072) : lidx_main_v2 (ix2 r j) k = ix2 r k := by
  funext a
  match a with
  | ⟨0, _⟩ => rfl
  | ⟨1, _⟩ => rfl

theorem ridx_ix2 (r : Fin 4096) (j : Fin 2048) (k : Fin 3072) : ridx_main_v2 (ix2 r j) k = ix2 k j := by
  funext a
  match a with
  | ⟨0, _⟩ => rfl
  | ⟨1, _⟩ => rfl

theorem bidx_ix2 (r : Fin 4096) (j : Fin 2048) : idx_main_v3 (idx_main_v4 (ix2 r j)) = ix1 j := by
  funext a
  match a with
  | ⟨0, _⟩ => rfl

/-- A gate's pre-activation as the reference computes it (one sum over the 3072 joined columns against the
    transposed weight, plus the broadcast bias) is the specification's `preK`. -/
theorem gate_ref (x : FVec Ideal S4096x1024 .f32) (h : FVec Ideal S4096x2048 .f32) (W : FVec Ideal S2048x3072 .f32)
    (b : FVec Ideal S2048 .f32) (i : S4096x2048.Idx) :
    (∑ k : Fin 3072,
        (concatenate S4096x3072 1 [⟨S4096x1024, x⟩, ⟨S4096x2048, h⟩] Gen.concatenates_S4096x1024_S4096x2048_S4096x3072_d1) (lidx_main_v2 i k)
          * (transpose S3072x2048 [1, 0] W Gen.transposes_S2048x3072_S3072x2048_1_0) (ridx_main_v2 i k))
        + b (idx_main_v3 (idx_main_v4 i))
      = preK x h (wx W) (wh W) b (i 0) (i 1) := by
  obtain ⟨r, j, rfl⟩ : ∃ (r : Fin 4096) (j : Fin 2048), i = ix2 r j := ⟨i 0, i 1, eq_ix2 i⟩
  show _ = preK x h (wx W) (wh W) b r j
  unfold preK
  rw [sum_split, bidx_ix2]
  have e1 : ∀ k : Fin 1024,
      (concatenate S4096x3072 1 [⟨S4096x1024, x⟩, ⟨S4096x2048, h⟩] Gen.concatenates_S4096x1024_S4096x2048_S4096x3072_d1) (lidx_main_v2 (ix2 r j) (⟨k.val, by omega⟩ : Fin 3072))
          * (transpose S3072x2048 [1, 0] W Gen.transposes_S2048x3072_S3072x2048_1_0) (ridx_main_v2 (ix2 r j) (⟨k.val, by omega⟩ : Fin 3072))
        = x (ix2 r k) * wx W (ix2 k j) := fun k => by
    rw [lidx_ix2, ridx_ix2, cat_left, tr_apply, wx_apply]
  have e2 : ∀ k : Fin 2048,
      (concatenate S4096x3072 1 [⟨S4096x1024, x⟩, ⟨S4096x2048, h⟩] Gen.concatenates_S4096x1024_S4096x2048_S4096x3072_d1) (lidx_main_v2 (ix2 r j) (⟨1024 + k.val, by omega⟩ : Fin 3072))
          * (transpose S3072x2048 [1, 0] W Gen.transposes_S2048x3072_S3072x2048_1_0) (ridx_main_v2 (ix2 r j) (⟨1024 + k.val, by omega⟩ : Fin 3072))
        = h (ix2 r k) * wh W (ix2 k j) := fun k => by
    rw [lidx_ix2, ridx_ix2, cat_right, tr_apply, wh_apply]
  rw [Finset.sum_congr rfl (fun k _ => e1 k), Finset.sum_congr rfl (fun k _ => e2 k)]

/-! ## The stages of the reference, read at an index -/

/-- The time gate's pre-activation. -/
theorem pre_t (i : S4096x2048.Idx) :
    val_main_v5 (F := Ideal) x0 x1 x4 x5 i = preK x0 x1 (wx x4) (wh x4) x5 (i 0) (i 1) := by
  rw [val_main_v5_apply, val_main_v2_apply, val_main_v4_apply, val_main_v3_apply]
  exact gate_ref x0 x1 x4 x5 i

/-- The absorb gate's pre-activation. -/
theorem pre_a (i : S4096x2048.Idx) :
    val_main_v23 (F := Ideal) x0 x1 x6 x7 i = preK x0 x1 (wx x6) (wh x6) x7 (i 0) (i 1) := by
  rw [val_main_v23_apply, val_main_v20_apply, val_main_v22_apply, val_main_v21_apply]
  exact gate_ref x0 x1 x6 x7 i

/-- The mixing gate's pre-activation. -/
theorem pre_w (i : S4096x2048.Idx) :
    val_main_v44 (F := Ideal) x0 x1 x10 x11 i = preK x0 x1 (wx x10) (wh x10) x11 (i 0) (i 1) := by
  rw [val_main_v44_apply, val_main_v41_apply, val_main_v43_apply, val_main_v42_apply]
  exact gate_ref x0 x1 x10 x11 i

/-- The state gate's pre-activation, on `[x | h_up]` with `h_up` the reference's own stage. -/
theorem pre_e (i : S4096x2048.Idx) :
    val_main_v38 (F := Ideal) x0 x1 x2 x3 x4 x5 x8 x9 i
      = preK x0 (val_main_v32 (F := Ideal) x0 x1 x2 x3 x4 x5) (wx x8) (wh x8) x9 (i 0) (i 1) := by
  rw [val_main_v38_apply, val_main_v35_apply, val_main_v37_apply, val_main_v36_apply]
  exact gate_ref x0 (val_main_v32 (F := Ideal) x0 x1 x2 x3 x4 x5) x8 x9 i

/-- The advanced time cell before the reset. -/
theorem adv_ref (i : S4096x2048.Idx) :
    val_main_v10 (F := Ideal) x0 x1 x3 x4 x5 i = adv (x3 i) (preK x0 x1 (wx x4) (wh x4) x5 (i 0) (i 1)) := by
  rw [val_main_v10_apply, val_main_v9_apply, val_main_cst_apply, val_main_v8_apply, val_main_call0_v0_apply,
    val_main_call0_cst_apply, val_main_v7_apply, val_main_v6_apply, pre_t]
  rfl

/-- The reset indicator. -/
theorem leap_ref (i : S4096x2048.Idx) :
    val_main_v13 (F := Ideal) x0 x1 x3 x4 x5 i = leap (adv (x3 i) (preK x0 x1 (wx x4) (wh x4) x5 (i 0) (i 1))) := by
  rw [val_main_v13_apply, val_main_v12_apply, val_main_v11_apply, val_main_cst_0_apply, adv_ref]
  rfl

/-- The released energy. -/
theorem energy_ref (i : S4096x2048.Idx) :
    val_main_v17 (F := Ideal) x0 x1 x2 x3 x4 x5 i = energy (x3 i) (x2 i) (preK x0 x1 (wx x4) (wh x4) x5 (i 0) (i 1)) := by
  rw [val_main_v17_apply, leap_ref]
  rfl

/-- The reference's `h_up` stage is `HUp`. -/
theorem hup_ref : val_main_v32 (F := Ideal) x0 x1 x2 x3 x4 x5 = HUp x0 x1 x2 x3 (wx x4) (wh x4) x5 := by
  funext i
  rw [val_main_v32_apply, energy_ref]
  rfl

/-- The absorb gate's logistic. -/
theorem sig_a (i : S4096x2048.Idx) :
    val_main_v29 (F := Ideal) x0 x1 x6 x7 i = Ideal.logistic (preK x0 x1 (wx x6) (wh x6) x7 (i 0) (i 1)) := by
  rw [val_main_v29_apply, val_main_v28_apply, val_main_cst_3_apply, val_main_v27_apply, val_main_v26_apply,
    val_main_cst_2_apply, val_main_v25_apply, val_main_v24_apply, pre_a]
  exact logistic_expand _

/-- The mixing gate's logistic. -/
theorem sig_w (i : S4096x2048.Idx) :
    val_main_v50 (F := Ideal) x0 x1 x10 x11 i = Ideal.logistic (preK x0 x1 (wx x10) (wh x10) x11 (i 0) (i 1)) := by
  rw [val_main_v50_apply, val_main_v49_apply, val_main_cst_5_apply, val_main_v48_apply, val_main_v47_apply,
    val_main_cst_4_apply, val_main_v46_apply, val_main_v45_apply, pre_w]
  exact logistic_expand _

/-- The reference's `time_next` is `TimeNext`. -/
theorem ref_time : val_main_v16 (F := Ideal) x0 x1 x3 x4 x5 = TimeNext x0 x1 x3 (wx x4) (wh x4) x5 := by
  funext i
  rw [val_main_v16_apply, val_main_v15_apply, val_main_v14_apply, val_main_cst_1_apply, leap_ref, adv_ref]
  rfl

/-- The reference's `excited` is `Excited`. -/
theorem ref_excited : val_main_v31 (F := Ideal) x0 x1 x2 x3 x4 x5 x6 x7
    = Excited x0 x1 x2 x3 (wx x4) (wh x4) x5 (wx x6) (wh x6) x7 := by
  funext i
  rw [val_main_v31_apply, val_main_call1_v0_apply, val_main_call1_cst_apply, val_main_v30_apply, val_main_v18_apply,
    energy_ref, sig_a]
  rfl

/-- The reference's `h_next` is `HNext` at `h_up = HUp`. -/
theorem ref_hnext : val_main_v56 (F := Ideal) x0 x1 x2 x3 x4 x5 x8 x9 x10 x11
    = HNext x0 x1 (HUp x0 x1 x2 x3 (wx x4) (wh x4) x5) (wx x8) (wh x8) x9 (wx x10) (wh x10) x11 := by
  funext i
  rw [val_main_v56_apply, val_main_v55_apply, val_main_v54_apply, val_main_v53_apply, val_main_v52_apply,
    val_main_v51_apply, val_main_cst_6_apply, val_main_v39_apply, sig_w, pre_e, hup_ref]
  rfl

end Cert.ReferenceIdeal.RefValue

end
-- ==== Proof.lean ====
/-
  The certificate of the fused recurrent-cell kernel against its reference, over the extended reals.

  The kernel program is two chained kernel launches over 64 blocks of 64 batch rows.  The first computes the time
  and absorb gates and from them `time_next`, `excited` and `h_up = h · energy`; the second computes the state gate on
  `[x | h_up]` and the mixing gate on `[x | h]` and from them `h_next`.  Each gate's weight `W : [2048, 3072]` is
  split on the host into an `x`-part and an `h`-part, transposed, so that a gate's pre-activation is
  `x · Wxᵀ + h · Whᵀ + b`; the reference forms `[x | h] · Wᵀ + b` in one product over the 3072 joined columns.  At
  the ideal instance a change of float format is the identity, a block product into a zero accumulator and the host's
  `dot_general` are plain sums, and a sum over 3072 columns is the sum over the first 1024 plus the sum over the
  last 2048 (commutativity and associativity of addition on the extended reals: no finiteness is used).  The kernel's
  logistic function and the reference's expansion `1 / (1 + e^(-z))` are one function, and the kernel's `sitofp (extui (v ≤ 0))`
  and the reference's `uitofp (v ≤ 0)` are both the indicator of `v ≤ 0`.  Everything else is the same pointwise
  arithmetic on both sides (Proof/Spec.lean states it once).

  Frames: the kernel programs' are the generated frame certificates; the reference's is its generated run with the
  results dropped.  `preserves`: the ideal pass rewrote nothing.  `algebraic`: the kernel program's run with its
  three result buffers named (Proof/KRun.lean), those contents as the specification's arrays of the arguments
  (Proof/KValue.lean over Proof/KReg0.lean, Proof/KReg1.lean, Proof/KHost.lean), and the reference's run read stage
  by stage as the same arrays (Proof/RefValue.lean).
-/
import proofs.«167746_j13365938225768_1_alg».proof.Defs
import proofs.«167746_j13365938225768_1_alg».proof.Proof.Gen.Kernel
import proofs.«167746_j13365938225768_1_alg».proof.Proof.Gen.Kernel.Skeleton
import proofs.«167746_j13365938225768_1_alg».proof.Proof.Gen.Kernel.Launch
import proofs.«167746_j13365938225768_1_alg».proof.Proof.Gen.Kernel.Points
import proofs.«167746_j13365938225768_1_alg».proof.Proof.Gen.Kernel.Frame
import proofs.«167746_j13365938225768_1_alg».proof.Proof.Gen.KernelIdeal
import proofs.«167746_j13365938225768_1_alg».proof.Proof.Gen.KernelIdeal.Skeleton
import proofs.«167746_j13365938225768_1_alg».proof.Proof.Gen.KernelIdeal.Launch
import proofs.«167746_j13365938225768_1_alg».proof.Proof.Gen.KernelIdeal.Points
import proofs.«167746_j13365938225768_1_alg».proof.Proof.Gen.KernelIdeal.Frame
import proofs.«167746_j13365938225768_1_alg».proof.Proof.Gen.ReferenceIdeal
import proofs.«167746_j13365938225768_1_alg».proof.Proof.Gen.Pre_finite_inputs
import proofs.«167746_j13365938225768_1_alg».proof.Proof.Gen.ReferenceIdeal.Run
import proofs.«167746_j13365938225768_1_alg».proof.Proof.Gen.ReferenceIdeal.Read
import proofs.«167746_j13365938225768_1_alg».proof.Proof.KRun
import proofs.«167746_j13365938225768_1_alg».proof.Proof.KValue
import proofs.«167746_j13365938225768_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with `h_next`, `excited`, `time_next` of the arguments they agree on. -/
theorem algebraic : Cert.algebraic_KernelIdeal_ReferenceIdeal := by
  intro m ρ m' ρ' _ hagree
  refine ⟨fun c => Cert.KernelIdeal.Hand.hNextOf m c, fun c => Cert.KernelIdeal.Hand.excitedOf m c,
    fun c => Cert.KernelIdeal.Hand.timeNextOf m c, ?_, ?_⟩
  · exact (θ_run Cert.KernelIdeal.defs _ _).mono
      (fun r h c => ⟨(h c).1.trans (Cert.KernelIdeal.Hand.W3_hnext m ρ c),
        (h c).2.1.trans (Cert.KernelIdeal.Hand.W3_excited m ρ c),
        (h c).2.2.1.trans (Cert.KernelIdeal.Hand.W3_time m ρ c), (h c).2.2.2⟩)
      (Cert.KernelIdeal.Hand.run_named (F := Ideal) m ρ)
  · refine (θ_run Cert.ReferenceIdeal.defs _ _).mono (fun _ h c => ?_) (Cert.ReferenceIdeal.Value.run (F := Ideal) m' ρ')
    obtain ⟨h0, h1, h2, hrest⟩ := h c
    obtain ⟨a0, a1, a2, a3, a4, a5, a6, a7, a8, a9, a10, a11⟩ := hagree c
    refine ⟨h0.trans ?_, h1.trans ?_, h2.trans ?_, hrest⟩
    · rw [Cert.ReferenceIdeal.Read.val_main_v56_eq, Cert.ReferenceIdeal.RefValue.ref_hnext, a0, a1, a2, a3, a4, a5, a8, a9, a10, a11]
    · rw [Cert.ReferenceIdeal.Read.val_main_v31_eq, Cert.ReferenceIdeal.RefValue.ref_excited, a0, a1, a2, a3, a4, a5, a6, a7]
    · rw [Cert.ReferenceIdeal.Read.val_main_v16_eq, Cert.ReferenceIdeal.RefValue.ref_time, a0, a1, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
